-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x8192 : Shape := ⟨2, ![8192, 8192]⟩
abbrev S8192x256 : Shape := ⟨2, ![8192, 256]⟩
abbrev S3x256x256 : Shape := ⟨3, ![3, 256, 256]⟩
abbrev S3x256 : Shape := ⟨2, ![3, 256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_arg0 : IVec S8192x2 32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_c_6 : IVec S_ 32 := constantI S_ 32 4294959104#32
  let main_v19 : IVec S8192x2 32 := broadcastInDim S8192x2 ![] bcast_S_S8192x2 main_c_6
  let main_v20 : IVec S8192x2 1 := cmpi .sge main_arg0 main_v19
  let main_c_7 : IVec S_ 32 := constantI S_ 32 8192#32
  let main_v21 : IVec S8192x2 32 := broadcastInDim S8192x2 ![] bcast_S_S8192x2 main_c_7
  let main_v22 : IVec S8192x2 1 := cmpi .slt main_arg0 main_v21
  let main_v23 : IVec S8192x2 1 := andi main_v20 main_v22
  let main_c_8 : IVec S_ 1 := constantI S_ 1 1#1
  let main_v24 : IVec S_ 1 := (fun x v => Host.reduce IntOp.andi x v reducesTo_S8192x2_S_d0_1 h_S_) main_v23 main_c_8
  let main_v25 : IVec S_ 1 := andi main_v18 main_v24
  main_v25

def fn {F : FTy → Type} [FloatOps F] (main_arg0 : IVec S8192x2 32) (main_arg1 : FVec F S8192x8192 .f32) (main_arg2 : FVec F S8192x256 .f32) (main_arg3 : FVec F S3x256x256 .f32) (main_arg4 : FVec F S3x256 .f32) : IVec S_ 1 :=
  let main_v0 : FVec F S8192x8192 .f32 := Host.absf main_arg1
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg2
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg0 main_v13 main_v16
-- ==== Kernel.lean ====
abbrev S8192x2 : Shape := ⟨2, ![8192, 2]⟩
abbrev S8192x8192 : Shape := ⟨2, ![8192, 8192]⟩
abbrev S8192x256 : Shape := ⟨2, ![8192, 256]⟩
abbrev S3x256x256 : Shape := ⟨3, ![3, 256, 256]⟩
abbrev S3x256 : Shape := ⟨2, ![3, 256]⟩
abbrev S8192x1 : Shape := ⟨2, ![8192, 1]⟩
abbrev S8192 : Shape := ⟨1, ![8192]⟩
abbrev S1024x2048 : Shape := ⟨2, ![1024, 2048]⟩
abbrev S1024x256 : Shape := ⟨2, ![1024, 256]⟩
abbrev S2048x256 : Shape := ⟨2, ![2048, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S_ : Shape := ⟨0, ![]⟩
abbrev S1 : Shape := ⟨1, ![1]⟩
abbrev S1x1 : Shape := ⟨2, ![1, 1]⟩
abbrev S4x1x2048 : Shape := ⟨3, ![4, 1, 2048]⟩
abbrev S1x1x2048 : Shape := ⟨3, ![1, 1, 2048]⟩
abbrev S2048 : Shape := ⟨1, ![2048]⟩

abbrev nBuf : Space → Nat
  | .hbm => 59
  | .vmem => 14
  | .smem => 0
  | _ => 0

abbrev bufTy : (tb : Table) → Fin (tcTables nBuf tb) → BufTy
  | .hbm, ⟨0, _⟩ => ⟨S8192x2, .i32⟩
  | .hbm, ⟨1, _⟩ => ⟨S8192x8192, .f32⟩
  | .hbm, ⟨2, _⟩ => ⟨S8192x256, .f32⟩
  | .hbm, ⟨3, _⟩ => ⟨S3x256x256, .f32⟩
  | .hbm, ⟨4, _⟩ => ⟨S3x256, .f32⟩
  | .hbm, ⟨5, _⟩ => ⟨S8192x1, .i32⟩
  | .hbm, ⟨6, _⟩ => ⟨S8192, .i32⟩
  | .hbm, ⟨7, _⟩ => ⟨S8192x1, .i32⟩
  | .hbm, ⟨8, _⟩ => ⟨S8192, .i32⟩
  | .hbm, ⟨9, _⟩ => ⟨S3x256x256, .f32⟩
  | .hbm, ⟨10, _⟩ => ⟨S8192x256, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S1x1, .i32⟩
  | .hbm, ⟨24, _⟩ => ⟨S8192x1, .i32⟩
  | .hbm, ⟨25, _⟩ => ⟨S8192x1, .i1⟩
  | .hbm, ⟨26, _⟩ => ⟨S8192x1, .i1⟩
  | .hbm, ⟨27, _⟩ => ⟨S_, .i1⟩
  | .hbm, ⟨28, _⟩ => ⟨S8192, .i1⟩
  | .hbm, ⟨29, _⟩ => ⟨S8192x256, .f32⟩
  | .hbm, ⟨30, _⟩ => ⟨S8192x256, .i1⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S1, .i32⟩
  | .hbm, ⟨43, _⟩ => ⟨S_, .i32⟩
  | .hbm, ⟨44, _⟩ => ⟨S8192x1, .i32⟩
  | .hbm, ⟨45, _⟩ => ⟨S8192x1, .i1⟩
  | .hbm, ⟨46, _⟩ => ⟨S1x1, .i32⟩
  | .hbm, ⟨47, _⟩ => ⟨S8192x1, .i32⟩
  | .hbm, ⟨48, _⟩ => ⟨S8192x1, .i1⟩
  | .hbm, ⟨49, _⟩ => ⟨S8192x1, .i1⟩
  | .hbm, ⟨50, _⟩ => ⟨S_, .i1⟩
  | .hbm, ⟨51, _⟩ => ⟨S8192, .i1⟩
  | .hbm, ⟨52, _⟩ => ⟨S8192x256, .f32⟩
  | .hbm, ⟨53, _⟩ => ⟨S8192x256, .i1⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S4x1x2048, .f32⟩
  | .hbm, ⟨58, _⟩ => ⟨S8192, .f32⟩
  | .local _ .vmem, ⟨0, _⟩ => ⟨S1024x2048, .f32⟩
  | .local _ .vmem, ⟨1, _⟩ => ⟨S1024x2048, .f32⟩
  | .local _ .vmem, ⟨2, _⟩ => ⟨S8192x256, .f32⟩
  | .local _ .vmem, ⟨3, _⟩ => ⟨S3x256x256, .f32⟩
  | .local _ .vmem, ⟨4, _⟩ => ⟨S3x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1x1x2048, .f32⟩
  | .local _ .vmem, ⟨13, _⟩ => ⟨S1x1x2048, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  transposes_S3x256x256_S3x256x256_0_2_1 : S3x256x256.Transposes [0, 2, 1] S3x256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S2048x256 : 0 < S2048x256.numel
  inb_S1024x2048_S1024x2048_0_0 : ∀ a, (![0, 0] : Fin 2 → Nat) a + S1024x2048.size a ≤ S1024x2048.size a
  h_S1024x2048 : 0 < S1024x2048.numel
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x256_0 : S8192.BroadcastsInDim S8192x256 (![0] : Fin 1 → Fin S8192x256.rank)
  bcast_S_S8192x256 : S_.BroadcastsInDim S8192x256 (![] : Fin 0 → Fin S8192x256.rank)
  inb_S2048x256_S2048x256_0_0 : ∀ a, (![0, 0] : Fin 2 → Nat) a + S2048x256.size a ≤ S2048x256.size a
  shapeCasts_S2048x256_S2048x256 : S2048x256.ShapeCasts S2048x256
  reduces_S2048x256_S2048 : S2048x256.Reduces [1] S2048
  shapeCasts_S2048_S1x1x2048 : S2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S4x1x2048_S8192 : S4x1x2048.ShapeCasts S8192
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  gather_S8192x256_S8192x1_S8192x256_1_0_n_n_0_1_1256_wf : GatherDims.WF S8192x256 S8192x1 S8192x256 [1] [0] [] [0] [] 1 ![1, 256]
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .f32 = 32 ∨ (Rect.block (s := S3x256x256) S3x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S4x1x2048.size a
  hwx1_2 : ∀ i : grid1.Coords, EltTy.bits .f32 = 32 ∨ (Rect.block (s := S4x1x2048) S1x1x2048.size (cc1_transform_2 i) (hinb1_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2 : Shape := ⟨2, ![8192, 2]⟩
abbrev S8192x8192 : Shape := ⟨2, ![8192, 8192]⟩
abbrev S8192x256 : Shape := ⟨2, ![8192, 256]⟩
abbrev S3x256x256 : Shape := ⟨3, ![3, 256, 256]⟩
abbrev S3x256 : Shape := ⟨2, ![3, 256]⟩
abbrev S8192x1 : Shape := ⟨2, ![8192, 1]⟩
abbrev S8192 : Shape := ⟨1, ![8192]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 100
  | .vmem => 0
  | .smem => 0
  | _ => 0

abbrev bufTy : (tb : Table) → Fin (tcTables nBuf tb) → BufTy
  | .hbm, ⟨0, _⟩ => ⟨S8192x2, .i32⟩
  | .hbm, ⟨1, _⟩ => ⟨S8192x8192, .f32⟩
  | .hbm, ⟨2, _⟩ => ⟨S8192x256, .f32⟩
  | .hbm, ⟨3, _⟩ => ⟨S3x256x256, .f32⟩
  | .hbm, ⟨4, _⟩ => ⟨S3x256, .f32⟩
  | .hbm, ⟨5, _⟩ => ⟨S8192x1, .i32⟩
  | .hbm, ⟨6, _⟩ => ⟨S8192, .i32⟩
  | .hbm, ⟨7, _⟩ => ⟨S8192x1, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x8192, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x8192, .f32⟩
  | .hbm, ⟨27, _⟩ => ⟨S8192x256, .f32⟩
  | .hbm, ⟨28, _⟩ => ⟨S1x256x256, .f32⟩
  | .hbm, ⟨29, _⟩ => ⟨S256x256, .f32⟩
  | .hbm, ⟨30, _⟩ => ⟨S256x256, .f32⟩
  | .hbm, ⟨31, _⟩ => ⟨S8192x256, .f32⟩
  | .hbm, ⟨32, _⟩ => ⟨S1x256, .f32⟩
  | .hbm, ⟨33, _⟩ => ⟨S256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S1x256x256, .f32⟩
  | .hbm, ⟨38, _⟩ => ⟨S256x256, .f32⟩
  | .hbm, ⟨39, _⟩ => ⟨S256x256, .f32⟩
  | .hbm, ⟨40, _⟩ => ⟨S8192x256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S8192x256, .f32⟩
  | .hbm, ⟨45, _⟩ => ⟨S8192x256, .f32⟩
  | .hbm, ⟨46, _⟩ => ⟨S1x256x256, .f32⟩
  | .hbm, ⟨47, _⟩ => ⟨S256x256, .f32⟩
  | .hbm, ⟨48, _⟩ => ⟨S256x256, .f32⟩
  | .hbm, ⟨49, _⟩ => ⟨S8192x256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S1x256x256, .f32⟩
  | .hbm, ⟨57, _⟩ => ⟨S256x256, .f32⟩
  | .hbm, ⟨58, _⟩ => ⟨S256x256, .f32⟩
  | .hbm, ⟨59, _⟩ => ⟨S8192x256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S8192x256, .f32⟩
  | .hbm, ⟨64, _⟩ => ⟨S8192x256, .f32⟩
  | .hbm, ⟨65, _⟩ => ⟨S1x256x256, .f32⟩
  | .hbm, ⟨66, _⟩ => ⟨S256x256, .f32⟩
  | .hbm, ⟨67, _⟩ => ⟨S256x256, .f32⟩
  | .hbm, ⟨68, _⟩ => ⟨S8192x256, .f32⟩
  | .hbm, ⟨69, _⟩ => ⟨S1x256, .f32⟩
  | .hbm, ⟨70, _⟩ => ⟨S256, .f32⟩
  | .hbm, ⟨71, _⟩ => ⟨S1x256, .f32⟩
  | .hbm, ⟨72, _⟩ => ⟨S8192x256, .f32⟩
  | .hbm, ⟨73, _⟩ => ⟨S8192x256, .f32⟩
  | .hbm, ⟨74, _⟩ => ⟨S1x256x256, .f32⟩
  | .hbm, ⟨75, _⟩ => ⟨S256x256, .f32⟩
  | .hbm, ⟨76, _⟩ => ⟨S256x256, .f32⟩
  | .hbm, ⟨77, _⟩ => ⟨S8192x256, .f32⟩
  | .hbm, ⟨78, _⟩ => ⟨S1x256, .f32⟩
  | .hbm, ⟨79, _⟩ => ⟨S256, .f32⟩
  | .hbm, ⟨80, _⟩ => ⟨S1x256, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192x256, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192x256, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst : Ref sig .tc := ⟨.hbm, 84, rfl⟩
abbrev main_v75 : Ref sig .tc := ⟨.hbm, 85, rfl⟩
abbrev main_v76 : Ref sig .tc := ⟨.hbm, 86, rfl⟩
abbrev main_call0_v0 : Ref sig .tc := ⟨.hbm, 87, rfl⟩
abbrev main_call0_cst : Ref sig .tc := ⟨.hbm, 88, rfl⟩
abbrev main_call0_v1 : Ref sig .tc := ⟨.hbm, 89, rfl⟩
abbrev main_v77 : Ref sig .tc := ⟨.hbm, 90, rfl⟩
abbrev main_call1_v0 : Ref sig .tc := ⟨.hbm, 91, rfl⟩
abbrev main_call1_cst : Ref sig .tc := ⟨.hbm, 92, rfl⟩
abbrev main_call1_v1 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_call2_cst : Ref sig .tc := ⟨.hbm, 97, rfl⟩
abbrev main_call2_v0 : Ref sig .tc := ⟨.hbm, 98, rfl⟩
abbrev main_v81 : Ref sig .tc := ⟨.hbm, 99, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  reducesTo_S8192x256_S8192_d1 : S8192x256.ReducesTo [1] S8192
  h_S_ : 0 < S_.numel
  gather_S8192x8192_S8192x1_S8192x8192_1_0_n_n_0_1_18192_wf : GatherDims.WF S8192x8192 S8192x1 S8192x8192 [1] [0] [] [0] [] 1 ![1, 8192]
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def gather_S8192x8192_S8192x1_S8192x8192_1_0_n_n_0_1_18192 : GatherDims S8192x8192 S8192x1 S8192x8192 where
  offsetDims := [1]
  collapsedSliceDims := [0]
  operandBatchingDims := []
  startIndicesBatchingDims := []
  startIndexMap := [0]
  indexVectorDim := 1
  sliceSizes := ![1, 8192]
  wf := gather_S8192x8192_S8192x1_S8192x8192_1_0_n_n_0_1_18192_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.BitsR0Shared.lean ====
/-
  The first kernel region (the blocked product A · emb with the three affine layers applied at the last K-step), over the
  grid 8 × 4 walked row-major: point t is row-block t / 4 and K-step t % 4. What its runs share: each window's block
  at a point as the region finds the arrays; the two branch conditions of the body (K-step = 0: the accumulator is
  zeroed; K-step = 3: the layers are applied and the output block stored) in closed form over the points; where the
  output window is idle; the staging and scratch memrefs; and the region's invariant with the accumulator named.
-/
import proofs.«406657_j56633438765545_2_alg».proof.Proof.Gen.Kernel.Launch
import proofs.«406657_j56633438765545_2_alg».proof.Proof.Gen.Kernel.Skeleton
import proofs.«406657_j56633438765545_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched
    its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the points -/

/-- The K-step is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The K-step is the last one. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last K-step nothing is stored into the output block, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last K-step the output block is stored. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1024x256 .f32 := Memref.whole cc0_scratch0
abbrev VS0_0 : View sig .tc .vmem S1024x256 .f32 := scM0_0.view
/-- One staging buffer of the output window, through which its contents are stated. -/
abbrev VO0_4 : View sig .tc .vmem S1024x256 .f32 := (Memref.whole cc0_stg4_0 : Memref sig .tc .vmem S1024x256 .f32).view

/-- The other scoped buffers of the core (the second region's staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the accumulator as a memref owned at some contents. -/
theorem PhiA0_eq (c : Dev nD) :
    (Pipeline.ΦA spec0 c : sProp 𝕄)
      = iprop(iprop((∃ d, owns (c : Thread nD τ) scM0_0 fullShare d) ∗ restB (F := F) c) ∗ (∃ r, prngReg c r)) := by
  unfold Pipeline.ΦA restB; rw [scopedRest0_eq]; simp only [scM0_0, owns_whole]; try rfl

end Cert.Kernel.Frm

end
-- ==== Proof.BitsR0RunA.lean ====
/-
  The first region's body at the first K-step of a row-block: the accumulator is zeroed, then the step's partial product is added to it; the output block is not touched.
-/
import proofs.«406657_j56633438765545_2_alg».proof.Proof.BitsR0Shared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L4`) and in the accumulator (`LS0`), last first,
    with the body's triple: on whole memrefs, the inputs at their contents, it runs to the continuation holding the inputs
    as they were and those two buffers with their pieces written. -/
noncomputable def kernelRun0_A (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_mlp_kernel i arg2 harg2 arg3 harg3 arg4 harg4 arg5 harg5 arg6 harg6 arg7 harg7) K } := by
  refine ⟨[], ?_, fun xi4 E K => ?run⟩
  case run =>
    simp only [cc0__matmul_mlp_kernel_eq_skeleton]; unfold cc0__matmul_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frm

end
-- ==== Proof.BitsR0RunB.lean ====
/-
  The first region's body at a middle K-step: the step's partial product is added to the accumulator the point before left; the output block is not touched.
-/
import proofs.«406657_j56633438765545_2_alg».proof.Proof.BitsR0Shared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L4`) and in the accumulator (`LS0`), last first,
    with the body's triple: on whole memrefs, the inputs at their contents, it runs to the continuation holding the inputs
    as they were and those two buffers with their pieces written. -/
noncomputable def kernelRun0_B (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_mlp_kernel i arg2 harg2 arg3 harg3 arg4 harg4 arg5 harg5 arg6 harg6 arg7 harg7) K } := by
  refine ⟨[], ?_, fun xi4 E K => ?run⟩
  case run =>
    simp only [cc0__matmul_mlp_kernel_eq_skeleton]; unfold cc0__matmul_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frm

end
-- ==== Proof.BitsR0RunC.lean ====
/-
  The first region's body at the last K-step: the step's partial product is added to the accumulator, and the three affine layers of the finished accumulator are stored as the output block.
-/
import proofs.«406657_j56633438765545_2_alg».proof.Proof.BitsR0Shared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L4`) and in the accumulator (`LS0`), last first,
    with the body's triple: on whole memrefs, the inputs at their contents, it runs to the continuation holding the inputs
    as they were and those two buffers with their pieces written. -/
noncomputable def kernelRun0_C (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_mlp_kernel i arg2 harg2 arg3 harg3 arg4 harg4 arg5 harg5 arg6 harg6 arg7 harg7) K } := by
  refine ⟨?_, ?_, fun E K => ?run⟩
  case run =>
    simp only [cc0__matmul_mlp_kernel_eq_skeleton]; unfold cc0__matmul_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Frm

end
-- ==== Proof.BitsR0Frame.lean ====
/-
  The first kernel region, point by point. Within a row-block the four K-steps run in order: step 0 zeroes the accumulator
  and adds the first partial product, steps 1 and 2 add theirs to what the step before left, and step 3 adds the last and
  stores the three affine layers of the finished accumulator as the output block, which is written back there and only
  there. So what the accumulator holds after a point is a recursion over the points (`outsAt0`), the region's invariant
  between two points carries the accumulator at exactly that (`PhiS`), and the body at a point is one of three cases by the
  K-step.
-/
import proofs.«406657_j56633438765545_2_alg».proof.Proof.BitsR0RunA
import proofs.«406657_j56633438765545_2_alg».proof.Proof.BitsR0RunB
import proofs.«406657_j56633438765545_2_alg».proof.Proof.BitsR0RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's buffer: its pieces read back (none: the block is idle there, and nothing consults this). -/
def out0_A_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) : Vec F S1024x256 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) (y : S1024x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x256.size (by sl_kernel_rfl) y

/-- What case A leaves in the accumulator: its pieces read back. -/
def sout0_A_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) : Vec F S1024x256 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's buffer: its pieces read back (none: the block is idle there, and nothing consults this). -/
def out0_B_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) (y : S1024x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x256.size (by sl_kernel_rfl) y

/-- What case B leaves in the accumulator: its pieces read back. -/
def sout0_B_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store into the output block covers it. -/
theorem cover0_C_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) (y : S1024x256.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x256.size (by sl_kernel_rfl) y

/-- What case C leaves in the output block's buffer: its pieces read back. -/
def out0_C_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) (y : S1024x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x256.size (by sl_kernel_rfl) y

/-- What case C leaves in the accumulator: its pieces read back. -/
def sout0_C_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

section
-- the core's buffer contents when the region is entered
variable (V : (c : Dev nD) → (b : Ref sig .tc) → Buf (Elt F) ((c : Thread nD τ).loc b))

/-! ## What the output block's buffer and the accumulator hold after each point -/

/-- After the body at position `n`: the case the K-step selects, run on the point's blocks, the accumulator it starts from
    being what position `n - 1` left. -/
def outsAt0 (c : Dev nD) : (n : ℕ) → n < cfg0.N → Vec F S1024x256 .f32 × Vec F S1024x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one (the accumulator at anything);
    afterwards the accumulator at what the point before left, the other scoped buffers at anything, the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restB (F := F) c) ∗ (∃ r, prngReg c r)) := by
  cases n with
  | zero => exact absurd rfl hz
  | succ n => rfl

/-! ## The region's proof data -/

/-- On core `c`: the arrays as the region finds them; after the body at point `t` each input's buffer at its block and the
    output block's buffer at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point. The inputs' memrefs hold their blocks; the K-step says which case the point is in; the
    invariant hands the body the accumulator at what the point before left (at anything at the very first point) and takes
    it back at this point's contents; before the last K-step the output block's buffer is handed back untouched, at the
    last one it holds the case's store; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- K-step 0
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- K-step 3
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · -- K-steps 1 and 2
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HB⟩, Hg⟩
  isplitl [HS0 HB]
  · isplitl [HS0]
    · iexists _; iexact HS0
    iexact HB
  iexact Hg

theorem hout0 (c : Dev nD) : (dat0 V c).Φ (Fin.last cfg0.N) ⊢ Pipeline.ΦA spec0 c :=
  Phi_out0 V c _ (by rw [Fin.val_last]; have : cfg0.N = 32 := N_0; omega)

end

end Cert.Kernel.Frm

end
-- ==== Proof.BitsR1.lean ====
/-
  The second kernel region (the clipped absolute cosine of gathered feature rows), over four points: point t takes rows
  2048·t … 2048·t + 2047 of the two gathered tables and stores their 2048 results as block t of the output. Its body
  loads the two blocks whole, computes, and stores the output block whole; nothing is kept between points.
-/
import proofs.«406657_j56633438765545_2_alg».proof.Proof.Gen.Kernel.Launch
import proofs.«406657_j56633438765545_2_alg».proof.Proof.Gen.Kernel.Skeleton
import proofs.«406657_j56633438765545_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of a gathered table, and of the output. -/
abbrev r1_in : Rect S2048x256 := Rect.unit (s := S2048x256) ![0, 0] S2048x256.size inb_S2048x256_S2048x256_0_0
abbrev r1_out : Rect S1x1x2048 := Rect.unit (s := S1x1x2048) ![0, 0, 0] S1x1x2048.size inb_S1x1x2048_S1x1x2048_0_0_0

/-- What the body leaves in the output block's buffer, from the two input blocks: its one store. -/
def out1_2 (x0 x1 : Vec F S2048x256 .f32) : Vec F S1x1x2048 .f32 :=
  View.canon [⟨r1_out, k1_pay1 (View.ld x0 r1_in) (View.ld x1 r1_in)⟩]

/-- That store covers the block. -/
theorem cover1_2 (p0 : Vec F S1x1x2048 .f32) (y : S1x1x2048.Idx) :
    ∃ pc ∈ ([⟨r1_out, p0⟩] : List (View.Piece (Elt F) S1x1x2048 .f32)), y ∈ pc.1.set :=
  View.cover_of_tiled [⟨r1_out, p0⟩] S1x1x2048.size (by rfl) y

set_option maxHeartbeats 2000000 in
/-- The body on whole staging memrefs, the inputs at contents `x0`, `x1` and the output at anything, runs to the
    continuation holding the inputs as they were and the output at `out1_2 x0 x1`. -/
theorem sound_kernel1 (c : Dev nD) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S1x1x2048 .f32) (harg3 : arg3.IsWhole)
    (x0 x1 : Vec F S2048x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each input's
    buffer at its block and the output's at `out1_2` of the two input blocks; the invariant the scoped rest and the
    generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frm

end
-- ==== Proof.BitsRun.lean ====
/-
  The whole program as one run: a stretch of host operations (the two index columns, the transposed weights), the first
  kernel region, the two gathers of its result (each a stretch of its own), the second kernel region, and the final
  reshape. Between two items the core holds every unscoped buffer at contents named here, a fold from the launch
  memory: a host stretch's operations applied in order, a region's arrays at what its write-backs leave. Every weakly
  fair execution ends with every unscoped buffer at the last of these contents.
-/
import proofs.«406657_j56633438765545_2_alg».proof.Proof.BitsR0Frame
import proofs.«406657_j56633438765545_2_alg».proof.Proof.BitsR1
import proofs.«406657_j56633438765545_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between items -/

/-- At launch. -/
abbrev W0 : Dev nD → Valuation τ sig (Elt F) := fun c b => m (c, b)
/-- After the first host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the gather by the first index column, -/
abbrev W3 : Dev nD → Valuation τ sig (Elt F) := fun c => StableHlo.after hostOps1 (W2 m c)
/-- and after the gather by the second: the second region's entry. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- After the final reshape: the end. -/
abbrev W6 : Dev nD → Valuation τ sig (Elt F) := fun c => StableHlo.after hostOps2 (W5 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- The first region over the thread state: entered from every unscoped buffer at `W1`, left at `W2`. Its arrays are split
    out of the unscoped buffers and put back at the exit contents; the generator register goes into the invariant and
    comes back; what the accumulator holds at the end is forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The six items in order (the same list on every core). -/
abbrev segs (c : Dev nD) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

set_option backward.isDefEq.respectTransparency.types false in
/-- From any memory with zero counters, every weakly fair execution of the program terminates, nothing faulting, and
    every final state holds each unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W6 m c))
    (hch := fun c => ⟨.rfl, .rfl, .rfl, .rfl, .rfl, .rfl, sep_mono .rfl (by iintro ⟨-, H⟩; iexact H)⟩)
    (hinit := ?_)
    (QY := fun c s => ∀ b ∈ Pipeline.ucRefs τ sig, s.mem (((c : Thread nD τ)).1, b) = W6 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (W6 m c) s')
    isplitl [Hh] <;> iassumption

end Cert.Kernel.Frm

end
-- ==== Proof.BitsFrameClaim.lean ====
/-
  The frame claim from the whole run: every argument array ends holding its launch contents, because no host stretch
  writes an argument and a region only reads one through an input window, whose array the pipeline leaves as it found it.
-/
import proofs.«406657_j56633438765545_2_alg».proof.Proof.BitsRun

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- `main_arg0` reaches the end as launched: no host stretch writes it, no region stages it. -/
theorem W6_main_arg0 (c : Dev nD) : W6 m c main_arg0 = m ((c : Thread nD τ).loc main_arg0) :=
  (StableHlo.after_of_writes_sub hostOps2 _ hostOps2_writes (by decide)).trans <|
  (W5_of_ne m c main_arg0 (by decide)).trans <|
  (StableHlo.after_of_writes_sub hostOps1_1 _ hostOps1_1_writes (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl

/-- `main_arg1` reaches the end as launched: no host stretch writes it, the first region only reads it through an input window. -/
theorem W6_main_arg1 (c : Dev nD) : W6 m c main_arg1 = m ((c : Thread nD τ).loc main_arg1) :=
  (StableHlo.after_of_writes_sub hostOps2 _ hostOps2_writes (by decide)).trans <|
  (W5_of_ne m c main_arg1 (by decide)).trans <|
  (StableHlo.after_of_writes_sub hostOps1_1 _ hostOps1_1_writes (by decide)).trans <|
  (StableHlo.after_of_writes_sub hostOps1 _ hostOps1_writes (by decide)).trans <|
  ((W2_arr m c 0).trans (((dat0 (V1 m) c).arrAt_in 0 rfl _).trans (A_eq0 (V1 m) c 0))).trans <|
  (StableHlo.after_of_writes_sub hostOps0 _ hostOps0_writes (by decide)).trans rfl

/-- `main_arg2` reaches the end as launched: no host stretch writes it, the first region only reads it through an input window. -/
theorem W6_main_arg2 (c : Dev nD) : W6 m c main_arg2 = m ((c : Thread nD τ).loc main_arg2) :=
  (StableHlo.after_of_writes_sub hostOps2 _ hostOps2_writes (by decide)).trans <|
  (W5_of_ne m c main_arg2 (by decide)).trans <|
  (StableHlo.after_of_writes_sub hostOps1_1 _ hostOps1_1_writes (by decide)).trans <|
  (StableHlo.after_of_writes_sub hostOps1 _ hostOps1_writes (by decide)).trans <|
  ((W2_arr m c 1).trans (((dat0 (V1 m) c).arrAt_in 1 rfl _).trans (A_eq0 (V1 m) c 1))).trans <|
  (StableHlo.after_of_writes_sub hostOps0 _ hostOps0_writes (by decide)).trans rfl

/-- `main_arg3` reaches the end as launched: no host stretch writes it, no region stages it. -/
theorem W6_main_arg3 (c : Dev nD) : W6 m c main_arg3 = m ((c : Thread nD τ).loc main_arg3) :=
  (StableHlo.after_of_writes_sub hostOps2 _ hostOps2_writes (by decide)).trans <|
  (W5_of_ne m c main_arg3 (by decide)).trans <|
  (StableHlo.after_of_writes_sub hostOps1_1 _ hostOps1_1_writes (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl

/-- `main_arg4` reaches the end as launched: no host stretch writes it, the first region only reads it through an input window. -/
theorem W6_main_arg4 (c : Dev nD) : W6 m c main_arg4 = m ((c : Thread nD τ).loc main_arg4) :=
  (StableHlo.after_of_writes_sub hostOps2 _ hostOps2_writes (by decide)).trans <|
  (W5_of_ne m c main_arg4 (by decide)).trans <|
  (StableHlo.after_of_writes_sub hostOps1_1 _ hostOps1_1_writes (by decide)).trans <|
  (StableHlo.after_of_writes_sub hostOps1 _ hostOps1_writes (by decide)).trans <|
  ((W2_arr m c 3).trans (((dat0 (V1 m) c).arrAt_in 3 rfl _).trans (A_eq0 (V1 m) c 3))).trans <|
  (StableHlo.after_of_writes_sub hostOps0 _ hostOps0_writes (by decide)).trans rfl

/-- From any memory with zero counters, every weakly fair execution terminates, nothing faulting, and every final state
    has the five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.Kernel.Frm

end
-- ==== Proof.R0Shared.lean ====
/-
  The first kernel region (the blocked product A · emb with the three affine layers applied at the last K-step), over the
  grid 8 × 4 walked row-major: point t is row-block t / 4 and K-step t % 4. What its runs share: each window's block
  at a point as the region finds the arrays; the two branch conditions of the body (K-step = 0: the accumulator is
  zeroed; K-step = 3: the layers are applied and the output block stored) in closed form over the points; where the
  output window is idle; the staging and scratch memrefs; and the region's invariant with the accumulator named.
-/
import proofs.«406657_j56633438765545_2_alg».proof.Proof.Gen.KernelIdeal.Launch
import proofs.«406657_j56633438765545_2_alg».proof.Proof.Gen.KernelIdeal.Skeleton
import proofs.«406657_j56633438765545_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched
    its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the points -/

/-- The K-step is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The K-step is the last one. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last K-step nothing is stored into the output block, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last K-step the output block is stored. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1024x256 .f32 := Memref.whole cc0_scratch0
abbrev VS0_0 : View sig .tc .vmem S1024x256 .f32 := scM0_0.view
/-- One staging buffer of the output window, through which its contents are stated. -/
abbrev VO0_4 : View sig .tc .vmem S1024x256 .f32 := (Memref.whole cc0_stg4_0 : Memref sig .tc .vmem S1024x256 .f32).view

/-- The other scoped buffers of the core (the second region's staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the accumulator as a memref owned at some contents. -/
theorem PhiA0_eq (c : Dev nD) :
    (Pipeline.ΦA spec0 c : sProp 𝕄)
      = iprop(iprop((∃ d, owns (c : Thread nD τ) scM0_0 fullShare d) ∗ restB (F := F) c) ∗ (∃ r, prngReg c r)) := by
  unfold Pipeline.ΦA restB; rw [scopedRest0_eq]; simp only [scM0_0, owns_whole]; try rfl

end Cert.KernelIdeal.Frm

end
-- ==== Proof.R0RunA.lean ====
/-
  The first region's body at the first K-step of a row-block: the accumulator is zeroed, then the step's partial product is added to it; the output block is not touched.
-/
import proofs.«406657_j56633438765545_2_alg».proof.Proof.R0Shared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L4`) and in the accumulator (`LS0`), last first,
    with the body's triple: on whole memrefs, the inputs at their contents, it runs to the continuation holding the inputs
    as they were and those two buffers with their pieces written. -/
noncomputable def kernelRun0_A (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_mlp_kernel i arg2 harg2 arg3 harg3 arg4 harg4 arg5 harg5 arg6 harg6 arg7 harg7) K } := by
  refine ⟨[], ?_, fun xi4 E K => ?run⟩
  case run =>
    simp only [cc0__matmul_mlp_kernel_eq_skeleton]; unfold cc0__matmul_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frm

end
-- ==== Proof.R0RunB.lean ====
/-
  The first region's body at a middle K-step: the step's partial product is added to the accumulator the point before left; the output block is not touched.
-/
import proofs.«406657_j56633438765545_2_alg».proof.Proof.R0Shared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L4`) and in the accumulator (`LS0`), last first,
    with the body's triple: on whole memrefs, the inputs at their contents, it runs to the continuation holding the inputs
    as they were and those two buffers with their pieces written. -/
noncomputable def kernelRun0_B (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_mlp_kernel i arg2 harg2 arg3 harg3 arg4 harg4 arg5 harg5 arg6 harg6 arg7 harg7) K } := by
  refine ⟨[], ?_, fun xi4 E K => ?run⟩
  case run =>
    simp only [cc0__matmul_mlp_kernel_eq_skeleton]; unfold cc0__matmul_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frm

end
-- ==== Proof.R0RunC.lean ====
/-
  The first region's body at the last K-step: the step's partial product is added to the accumulator, and the three affine layers of the finished accumulator are stored as the output block.
-/
import proofs.«406657_j56633438765545_2_alg».proof.Proof.R0Shared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L4`) and in the accumulator (`LS0`), last first,
    with the body's triple: on whole memrefs, the inputs at their contents, it runs to the continuation holding the inputs
    as they were and those two buffers with their pieces written. -/
noncomputable def kernelRun0_C (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_mlp_kernel i arg2 harg2 arg3 harg3 arg4 harg4 arg5 harg5 arg6 harg6 arg7 harg7) K } := by
  refine ⟨?_, ?_, fun E K => ?run⟩
  case run =>
    simp only [cc0__matmul_mlp_kernel_eq_skeleton]; unfold cc0__matmul_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Frm

end
-- ==== Proof.R0Frame.lean ====
/-
  The first kernel region, point by point. Within a row-block the four K-steps run in order: step 0 zeroes the accumulator
  and adds the first partial product, steps 1 and 2 add theirs to what the step before left, and step 3 adds the last and
  stores the three affine layers of the finished accumulator as the output block, which is written back there and only
  there. So what the accumulator holds after a point is a recursion over the points (`outsAt0`), the region's invariant
  between two points carries the accumulator at exactly that (`PhiS`), and the body at a point is one of three cases by the
  K-step.
-/
import proofs.«406657_j56633438765545_2_alg».proof.Proof.R0RunA
import proofs.«406657_j56633438765545_2_alg».proof.Proof.R0RunB
import proofs.«406657_j56633438765545_2_alg».proof.Proof.R0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's buffer: its pieces read back (none: the block is idle there, and nothing consults this). -/
def out0_A_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) : Vec F S1024x256 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) (y : S1024x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x256.size (by sl_kernel_rfl) y

/-- What case A leaves in the accumulator: its pieces read back. -/
def sout0_A_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) : Vec F S1024x256 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's buffer: its pieces read back (none: the block is idle there, and nothing consults this). -/
def out0_B_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) (y : S1024x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x256.size (by sl_kernel_rfl) y

/-- What case B leaves in the accumulator: its pieces read back. -/
def sout0_B_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store into the output block covers it. -/
theorem cover0_C_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) (y : S1024x256.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x256.size (by sl_kernel_rfl) y

/-- What case C leaves in the output block's buffer: its pieces read back. -/
def out0_C_4 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) (y : S1024x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x256.size (by sl_kernel_rfl) y

/-- What case C leaves in the accumulator: its pieces read back. -/
def sout0_C_0 (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) : Vec F S1024x256 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

section
-- the core's buffer contents when the region is entered
variable (V : (c : Dev nD) → (b : Ref sig .tc) → Buf (Elt F) ((c : Thread nD τ).loc b))

/-! ## What the output block's buffer and the accumulator hold after each point -/

/-- After the body at position `n`: the case the K-step selects, run on the point's blocks, the accumulator it starts from
    being what position `n - 1` left. -/
def outsAt0 (c : Dev nD) : (n : ℕ) → n < cfg0.N → Vec F S1024x256 .f32 × Vec F S1024x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one (the accumulator at anything);
    afterwards the accumulator at what the point before left, the other scoped buffers at anything, the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restB (F := F) c) ∗ (∃ r, prngReg c r)) := by
  cases n with
  | zero => exact absurd rfl hz
  | succ n => rfl

/-! ## The region's proof data -/

/-- On core `c`: the arrays as the region finds them; after the body at point `t` each input's buffer at its block and the
    output block's buffer at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point. The inputs' memrefs hold their blocks; the K-step says which case the point is in; the
    invariant hands the body the accumulator at what the point before left (at anything at the very first point) and takes
    it back at this point's contents; before the last K-step the output block's buffer is handed back untouched, at the
    last one it holds the case's store; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- K-step 0
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- K-step 3
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · -- K-steps 1 and 2
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HB⟩, Hg⟩
  isplitl [HS0 HB]
  · isplitl [HS0]
    · iexists _; iexact HS0
    iexact HB
  iexact Hg

theorem hout0 (c : Dev nD) : (dat0 V c).Φ (Fin.last cfg0.N) ⊢ Pipeline.ΦA spec0 c :=
  Phi_out0 V c _ (by rw [Fin.val_last]; have : cfg0.N = 32 := N_0; omega)

end

end Cert.KernelIdeal.Frm

end
-- ==== Proof.R1.lean ====
/-
  The second kernel region (the clipped absolute cosine of gathered feature rows), over four points: point t takes rows
  2048·t … 2048·t + 2047 of the two gathered tables and stores their 2048 results as block t of the output. Its body
  loads the two blocks whole, computes, and stores the output block whole; nothing is kept between points.
-/
import proofs.«406657_j56633438765545_2_alg».proof.Proof.Gen.KernelIdeal.Launch
import proofs.«406657_j56633438765545_2_alg».proof.Proof.Gen.KernelIdeal.Skeleton
import proofs.«406657_j56633438765545_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of a gathered table, and of the output. -/
abbrev r1_in : Rect S2048x256 := Rect.unit (s := S2048x256) ![0, 0] S2048x256.size inb_S2048x256_S2048x256_0_0
abbrev r1_out : Rect S1x1x2048 := Rect.unit (s := S1x1x2048) ![0, 0, 0] S1x1x2048.size inb_S1x1x2048_S1x1x2048_0_0_0

/-- What the body leaves in the output block's buffer, from the two input blocks: its one store. -/
def out1_2 (x0 x1 : Vec F S2048x256 .f32) : Vec F S1x1x2048 .f32 :=
  View.canon [⟨r1_out, k1_pay1 (View.ld x0 r1_in) (View.ld x1 r1_in)⟩]

/-- That store covers the block. -/
theorem cover1_2 (p0 : Vec F S1x1x2048 .f32) (y : S1x1x2048.Idx) :
    ∃ pc ∈ ([⟨r1_out, p0⟩] : List (View.Piece (Elt F) S1x1x2048 .f32)), y ∈ pc.1.set :=
  View.cover_of_tiled [⟨r1_out, p0⟩] S1x1x2048.size (by rfl) y

set_option maxHeartbeats 2000000 in
/-- The body on whole staging memrefs, the inputs at contents `x0`, `x1` and the output at anything, runs to the
    continuation holding the inputs as they were and the output at `out1_2 x0 x1`. -/
theorem sound_kernel1 (c : Dev nD) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S1x1x2048 .f32) (harg3 : arg3.IsWhole)
    (x0 x1 : Vec F S2048x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each input's
    buffer at its block and the output's at `out1_2` of the two input blocks; the invariant the scoped rest and the
    generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frm

end
-- ==== Proof.Run.lean ====
/-
  The whole program as one run: a stretch of host operations (the two index columns, the transposed weights), the first
  kernel region, the two gathers of its result (each a stretch of its own), the second kernel region, and the final
  reshape. Between two items the core holds every unscoped buffer at contents named here, a fold from the launch
  memory: a host stretch's operations applied in order, a region's arrays at what its write-backs leave. Every weakly
  fair execution ends with every unscoped buffer at the last of these contents.
-/
import proofs.«406657_j56633438765545_2_alg».proof.Proof.R0Frame
import proofs.«406657_j56633438765545_2_alg».proof.Proof.R1
import proofs.«406657_j56633438765545_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between items -/

/-- At launch. -/
abbrev W0 : Dev nD → Valuation τ sig (Elt F) := fun c b => m (c, b)
/-- After the first host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the gather by the first index column, -/
abbrev W3 : Dev nD → Valuation τ sig (Elt F) := fun c => StableHlo.after hostOps1 (W2 m c)
/-- and after the gather by the second: the second region's entry. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- After the final reshape: the end. -/
abbrev W6 : Dev nD → Valuation τ sig (Elt F) := fun c => StableHlo.after hostOps2 (W5 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- The first region over the thread state: entered from every unscoped buffer at `W1`, left at `W2`. Its arrays are split
    out of the unscoped buffers and put back at the exit contents; the generator register goes into the invariant and
    comes back; what the accumulator holds at the end is forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The six items in order (the same list on every core). -/
abbrev segs (c : Dev nD) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

set_option backward.isDefEq.respectTransparency.types false in
/-- From any memory with zero counters, every weakly fair execution of the program terminates, nothing faulting, and
    every final state holds each unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W6 m c))
    (hch := fun c => ⟨.rfl, .rfl, .rfl, .rfl, .rfl, .rfl, sep_mono .rfl (by iintro ⟨-, H⟩; iexact H)⟩)
    (hinit := ?_)
    (QY := fun c s => ∀ b ∈ Pipeline.ucRefs τ sig, s.mem (((c : Thread nD τ)).1, b) = W6 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (W6 m c) s')
    isplitl [Hh] <;> iassumption

end Cert.KernelIdeal.Frm

end
-- ==== Proof.FrameClaim.lean ====
/-
  The frame claim from the whole run: every argument array ends holding its launch contents, because no host stretch
  writes an argument and a region only reads one through an input window, whose array the pipeline leaves as it found it.
-/
import proofs.«406657_j56633438765545_2_alg».proof.Proof.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- `main_arg0` reaches the end as launched: no host stretch writes it, no region stages it. -/
theorem W6_main_arg0 (c : Dev nD) : W6 m c main_arg0 = m ((c : Thread nD τ).loc main_arg0) :=
  (StableHlo.after_of_writes_sub hostOps2 _ hostOps2_writes (by decide)).trans <|
  (W5_of_ne m c main_arg0 (by decide)).trans <|
  (StableHlo.after_of_writes_sub hostOps1_1 _ hostOps1_1_writes (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl

/-- `main_arg1` reaches the end as launched: no host stretch writes it, the first region only reads it through an input window. -/
theorem W6_main_arg1 (c : Dev nD) : W6 m c main_arg1 = m ((c : Thread nD τ).loc main_arg1) :=
  (StableHlo.after_of_writes_sub hostOps2 _ hostOps2_writes (by decide)).trans <|
  (W5_of_ne m c main_arg1 (by decide)).trans <|
  (StableHlo.after_of_writes_sub hostOps1_1 _ hostOps1_1_writes (by decide)).trans <|
  (StableHlo.after_of_writes_sub hostOps1 _ hostOps1_writes (by decide)).trans <|
  ((W2_arr m c 0).trans (((dat0 (V1 m) c).arrAt_in 0 rfl _).trans (A_eq0 (V1 m) c 0))).trans <|
  (StableHlo.after_of_writes_sub hostOps0 _ hostOps0_writes (by decide)).trans rfl

/-- `main_arg2` reaches the end as launched: no host stretch writes it, the first region only reads it through an input window. -/
theorem W6_main_arg2 (c : Dev nD) : W6 m c main_arg2 = m ((c : Thread nD τ).loc main_arg2) :=
  (StableHlo.after_of_writes_sub hostOps2 _ hostOps2_writes (by decide)).trans <|
  (W5_of_ne m c main_arg2 (by decide)).trans <|
  (StableHlo.after_of_writes_sub hostOps1_1 _ hostOps1_1_writes (by decide)).trans <|
  (StableHlo.after_of_writes_sub hostOps1 _ hostOps1_writes (by decide)).trans <|
  ((W2_arr m c 1).trans (((dat0 (V1 m) c).arrAt_in 1 rfl _).trans (A_eq0 (V1 m) c 1))).trans <|
  (StableHlo.after_of_writes_sub hostOps0 _ hostOps0_writes (by decide)).trans rfl

/-- `main_arg3` reaches the end as launched: no host stretch writes it, no region stages it. -/
theorem W6_main_arg3 (c : Dev nD) : W6 m c main_arg3 = m ((c : Thread nD τ).loc main_arg3) :=
  (StableHlo.after_of_writes_sub hostOps2 _ hostOps2_writes (by decide)).trans <|
  (W5_of_ne m c main_arg3 (by decide)).trans <|
  (StableHlo.after_of_writes_sub hostOps1_1 _ hostOps1_1_writes (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl

/-- `main_arg4` reaches the end as launched: no host stretch writes it, the first region only reads it through an input window. -/
theorem W6_main_arg4 (c : Dev nD) : W6 m c main_arg4 = m ((c : Thread nD τ).loc main_arg4) :=
  (StableHlo.after_of_writes_sub hostOps2 _ hostOps2_writes (by decide)).trans <|
  (W5_of_ne m c main_arg4 (by decide)).trans <|
  (StableHlo.after_of_writes_sub hostOps1_1 _ hostOps1_1_writes (by decide)).trans <|
  (StableHlo.after_of_writes_sub hostOps1 _ hostOps1_writes (by decide)).trans <|
  ((W2_arr m c 3).trans (((dat0 (V1 m) c).arrAt_in 3 rfl _).trans (A_eq0 (V1 m) c 3))).trans <|
  (StableHlo.after_of_writes_sub hostOps0 _ hostOps0_writes (by decide)).trans rfl

/-- From any memory with zero counters, every weakly fair execution terminates, nothing faulting, and every final state
    has the five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.KernelIdeal.Frm

end
-- ==== Proof.Spec.lean ====
/-
  The function both programs compute, entry by entry, over the extended reals.

  An edge `r` names two nodes by the words `edges[r, 0]` and `edges[r, 1]`. A word `e` below zero is first moved up by
  8192 (Python's reading of a negative index), and the row it names is that value clamped into `[0, 8191]`. A node's
  features are its row of `A · emb` sent through three affine layers `h ↦ h · Wₗᵀ + bₗ`; an edge's result is
  `max (|⟨u, v⟩| / (‖u‖ · ‖v‖)) 0` of its two nodes' feature rows `u`, `v`.
-/
import Idealize.ShloMosaic.PureOps.Ideal
import Idealize.ShloMosaic.Lib.ValueIdx

noncomputable section

open scoped BigOperators

namespace Cert.Spec

open Idealize.ShloMosaic Idealize.ShloMosaic.ValueIdx

/-- An index word with Python's reading of a negative index: a word below zero is moved up by the table's 8192 rows. -/
def wrapW (e : BitVec 32) : BitVec 32 :=
  Scalar.select (IntOp.cmpi .slt e 0#32) (IntOp.addi e 8192#32) e

/-- The row a gather reads for the index word `e`: the wrapped word, read signed, clamped into `[0, 8191]`. -/
def rowOf (e : BitVec 32) : Fin 8192 := ⟨min (wrapW e).toInt.toNat 8191, by omega⟩

/-- The wrapped word lies in `[0, 8191]`, as the two signed comparisons of a filling take test it. -/
def InRange (e : BitVec 32) : Prop :=
  IntOp.cmpi .sge (wrapW e) 0#32 = 1#1 ∧ IntOp.cmpi .sle (wrapW e) 8191#32 = 1#1

variable (A : (⟨2, ![8192, 8192]⟩ : Shape).Idx → EReal) (E : (⟨2, ![8192, 256]⟩ : Shape).Idx → EReal)
  (W : (⟨3, ![3, 256, 256]⟩ : Shape).Idx → EReal) (b : (⟨2, ![3, 256]⟩ : Shape).Idx → EReal)

/-- Row `i` of `A · emb`: the embeddings summed with node `i`'s adjacency weights. -/
def agg (i : Fin 8192) (d : Fin 256) : EReal := ∑ k : Fin 8192, A (ix2 i k) * E (ix2 k d)

/-- One affine layer on a feature row: `(h · Wₗᵀ + bₗ)[d] = ∑ₖ h[k] · W[l, d, k] + b[l, d]`. -/
def layer (l : Fin 3) (h : Fin 256 → EReal) (d : Fin 256) : EReal :=
  (∑ k : Fin 256, h k * W (ix3 l d k)) + b (ix2 l d)

/-- Node `i`'s features: its aggregated row through the three layers in order. -/
def feat (i : Fin 8192) : Fin 256 → EReal :=
  layer W b 2 (layer W b 1 (layer W b 0 (agg A E i)))

/-- The clipped absolute cosine of two feature rows. -/
def cosRelu (u v : Fin 256 → EReal) : EReal :=
  max (Ideal.div (max (∑ d : Fin 256, u d * v d) (-(∑ d : Fin 256, u d * v d)))
    (Ideal.sqrt (∑ d : Fin 256, u d * u d) * Ideal.sqrt (∑ d : Fin 256, v d * v d))) 0

/-- Edge `r`'s result. -/
def edgeVal (edges : IVec ⟨2, ![8192, 2]⟩ 32) (r : Fin 8192) : EReal :=
  cosRelu (feat A E W b (rowOf (edges (ix2 r (0 : Fin 2))))) (feat A E W b (rowOf (edges (ix2 r (1 : Fin 2)))))

/-- The whole result array. -/
def G (edges : IVec ⟨2, ![8192, 2]⟩ 32) : (⟨1, ![8192]⟩ : Shape).Idx → EReal :=
  fun j => edgeVal A E W b edges ⟨(j 0).val, (j 0).isLt⟩

theorem G_ix1 (edges : IVec ⟨2, ![8192, 2]⟩ 32) (r : Fin 8192) :
    G A E W b edges (ix1 r) = edgeVal A E W b edges r := rfl

end Cert.Spec

end
-- ==== Proof.R0Value.lean ====
/-
  The first kernel region's output array after the run: entry (i, d) is feature d of node i, the row i of A · emb sent
  through the three affine layers.

  The road. What each K-step leaves in the accumulator and what the last one stores as the output block are read off
  the stores of the step's case: the accumulator before the step (the zero block at a first step) plus the product of
  the step's adjacency block with the step's 2048 rows of the embedding table; the stored block is three times a
  product with a slice of the stacked transposed weights plus a slice of the stacked biases. Read at an index, a step's
  product is the sum over the step's 2048 columns, so by induction on the points the accumulator after K-step k of a
  row-block holds the sum over the first k + 1 column blocks, and after the fourth the whole row of A · emb (the
  columns 0 … 8191 are four consecutive runs of 2048). The stored block is then the specification's three layers of
  that row, the last K-step of a row-block writes it back as rows 1024 (t / 4) … of the array, and these blocks cover
  the array.
-/
import proofs.«406657_j56633438765545_2_alg».proof.Proof.R0Frame
import proofs.«406657_j56633438765545_2_alg».proof.Proof.Spec
import Idealize.ShloMosaic.Lib.Pipeline.Value
import Idealize.ShloMosaic.Lib.Tactic
import Idealize.ShloMosaic.PureOps.Ideal.Laws
import Idealize.ShloMosaic.Lib.ValueIdx

noncomputable section

open scoped BigOperators

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable {F : FTy → Type} [FloatOps F]

theorem hz2 : (![0, 0] : Fin 2 → Nat) = fun _ => 0 := funext fun a => by fin_cases a <;> rfl

/-! ## What each case's stores leave -/

/-- The rows of the embedding table a K-step multiplies by: the 2048 rows from the step's offset. -/
abbrev etile (i : grid0.Coords) (x1 : Vec F S8192x256 .f32) : Vec F S2048x256 .f32 :=
  View.ld x1 (Rect.unit (s := S8192x256) (k0_off1 i) S2048x256.size (k0_off1_inb i))

/-- Layer `l`'s slice of the stacked (transposed) weights, as the last K-step loads it. -/
abbrev wsl0 (x2 : Vec F S3x256x256 .f32) : Vec F S1x256x256 .f32 :=
  View.ld x2 (Rect.unit (s := S3x256x256) ![0, 0, 0] S1x256x256.size inb_S3x256x256_S1x256x256_0_0_0)
abbrev wsl1 (x2 : Vec F S3x256x256 .f32) : Vec F S1x256x256 .f32 :=
  View.ld x2 (Rect.unit (s := S3x256x256) ![1, 0, 0] S1x256x256.size inb_S3x256x256_S1x256x256_1_0_0)
abbrev wsl2 (x2 : Vec F S3x256x256 .f32) : Vec F S1x256x256 .f32 :=
  View.ld x2 (Rect.unit (s := S3x256x256) ![2, 0, 0] S1x256x256.size inb_S3x256x256_S1x256x256_2_0_0)
/-- Layer `l`'s slice of the stacked biases, as the last K-step loads it. -/
abbrev bsl0 (x3 : Vec F S3x256 .f32) : Vec F S1x256 .f32 :=
  View.ld x3 (Rect.unit (s := S3x256) ![0, 0] S1x256.size inb_S3x256_S1x256_0_0)
abbrev bsl1 (x3 : Vec F S3x256 .f32) : Vec F S1x256 .f32 :=
  View.ld x3 (Rect.unit (s := S3x256) ![1, 0] S1x256.size inb_S3x256_S1x256_1_0)
abbrev bsl2 (x3 : Vec F S3x256 .f32) : Vec F S1x256 .f32 :=
  View.ld x3 (Rect.unit (s := S3x256) ![2, 0] S1x256.size inb_S3x256_S1x256_2_0)

/-- A middle K-step leaves in the accumulator what it held plus the step's partial product. -/
theorem soutB_eq (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S3x256x256 .f32) (x3 : Vec F S3x256 .f32) (xs0 : Vec F S1024x256 .f32) :
    sout0_B_0 c i arg2 harg2 arg3 harg3 arg4 harg4 arg5 harg5 arg6 harg6 arg7 harg7 hc0 hc1 x0 x1 x2 x3 xs0 = k0_pay2 (etile i x1) xs0 x0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_run_names
  rw [View.canon_unit_zero hz2]
  simp only [View.readAt_eq_ld, harg2.read_unread, harg3.read_unread, harg7.read_unread, View.ld_unit_zero (S := S1024x256) hz2, View.ld_unit_zero (S := S1024x2048) hz2]

/-- The first K-step leaves in the accumulator the zero block plus the step's partial product. -/
theorem soutA_eq (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S3x256x256 .f32) (x3 : Vec F S3x256 .f32) :
    sout0_A_0 c i arg2 harg2 arg3 harg3 arg4 harg4 arg5 harg5 arg6 harg6 arg7 harg7 hc0 hc1 x0 x1 x2 x3 = k0_pay2 (etile i x1) (k0_pay1 (F := F)) x0 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  try sl_unfold_run_names
  rw [View.canon_cons_unit_zero (S := S1024x256) hz2, View.readCov_unit_zero (S := S1024x256) _ hz2]
  simp only [View.readAt_eq_ld, harg2.read_unread, harg3.read_unread, View.ld_unit_zero (S := S1024x2048) hz2]

/-- The last K-step leaves in the accumulator what it held plus the step's partial product. -/
theorem soutC_eq (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) :
    sout0_C_0 c i arg2 harg2 arg3 harg3 arg4 harg4 arg5 harg5 arg6 harg6 arg7 harg7 hc0 hc1 x0 x1 x2 x3 xs0 = k0_pay2 (etile i x1) xs0 x0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_run_names
  rw [View.canon_unit_zero hz2]
  simp only [View.readAt_eq_ld, harg2.read_unread, harg3.read_unread, harg7.read_unread, View.ld_unit_zero (S := S1024x256) hz2, View.ld_unit_zero (S := S1024x2048) hz2]

/-- The last K-step stores, as the output block, the three layers of the finished accumulator. -/
theorem outC_eq (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S3x256x256 .f32) (harg4 : arg4.IsWhole) (arg5 : Memref sig .tc .vmem S3x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S3x256x256 .f32) (x3 : Vec F S3x256 .f32) (xs0 : Vec F S1024x256 .f32) :
    out0_C_4 c i arg2 harg2 arg3 harg3 arg4 harg4 arg5 harg5 arg6 harg6 arg7 harg7 hc0 hc1 x0 x1 x2 x3 xs0
      = k0_pay3 (k0_pay2 (etile i x1) xs0 x0) (wsl0 x2) (bsl0 x3) (wsl1 x2) (bsl1 x3) (wsl2 x2) (bsl2 x3) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  try sl_unfold_run_names
  rw [View.canon_unit_zero hz2, View.readCov_unit_zero (S := S1024x256) _ hz2]
  simp only [View.readAt_eq_ld, harg2.read_unread, harg3.read_unread, harg4.read_unread, harg5.read_unread, harg7.read_unread, View.ld_unit_zero (S := S1024x256) hz2, View.ld_unit_zero (S := S1024x2048) hz2]

/-! ## The two products at an index -/

theorem lhsA_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhsA_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhsA_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhsA_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The K-step's product into the zero block, at `(p, q)`: the sum over the step's 2048 columns. -/
theorem mmA_apply (a : FVec Ideal S1024x2048 .f32) (b : FVec Ideal S2048x256 .f32) (p : Fin 1024) (q : Fin 256) :
    FloatOps.matmul dot_S1024x2048_S2048x256_S1024x256_1_0_0_1_n_n (some .fp32) a b (constant (F := Ideal) S1024x256 .f32 0x00000000#32) (ix2 p q)
      = ∑ j : Fin 2048, a (ix2 p j) * b (ix2 j q) := by
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 p q) ((ValueIdx.contrEquiv1 dot_S1024x2048_S2048x256_S1024x256_1_0_0_1_n_n 2048 rfl rfl).symm k) = ix2 p k := funext fun a => Fin.ext (by
    match a with
    | ⟨0, _⟩ => exact lhsA_0 _ _
    | ⟨1, _⟩ => exact (lhsA_1 _ _).trans hk)
  have er : dot_S1024x2048_S2048x256_S1024x256_1_0_0_1_n_n.rhsIdx (ix2 p q) ((ValueIdx.contrEquiv1 dot_S1024x2048_S2048x256_S1024x256_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

theorem lhsB_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsB_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsB_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsB_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A layer's product into the zero block, at `(p, q)`: the sum over the 256 features. -/
theorem mmB_apply (a : FVec Ideal S1024x256 .f32) (b : FVec Ideal S256x256 .f32) (p : Fin 1024) (q : Fin 256) :
    FloatOps.matmul dot_S1024x256_S256x256_S1024x256_1_0_0_1_n_n (some .fp32) a b (constant (F := Ideal) S1024x256 .f32 0x00000000#32) (ix2 p q)
      = ∑ j : Fin 256, a (ix2 p j) * b (ix2 j q) := by
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## The payloads at an index -/

/-- The zero block. -/
theorem pay1_apply (p : Fin 1024) (q : Fin 256) : k0_pay1 (F := Ideal) (ix2 p q) = 0 := by
  unfold k0_pay1
  refine (congrFun (shapeCast_self _ _) (ix2 p q)).trans ?_
  exact Ideal.ofBits_zero_f32

/-- A K-step's accumulation at `(p, q)`: what the accumulator held there plus the step's partial sum. -/
theorem pay2_apply (tile : Vec Ideal S2048x256 .f32) (acc : Vec Ideal S1024x256 .f32) (a : Vec Ideal S1024x2048 .f32) (p : Fin 1024) (q : Fin 256) :
    k0_pay2 (F := Ideal) tile acc a (ix2 p q) = acc (ix2 p q) + ∑ j : Fin 2048, a (ix2 p j) * tile (ix2 j q) := by
  unfold k0_pay2
  refine (congrFun (shapeCast_self _ _) (ix2 p q)).trans ?_
  exact congrArg (acc (ix2 p q) + ·) (mmA_apply a tile p q)

/-- One layer as the last K-step computes it: the product with a slice of the stacked weights plus the slice of the stacked biases. -/
def klayer (h : FVec Ideal S1024x256 .f32) (w : FVec Ideal S1x256x256 .f32) (b : FVec Ideal S1x256 .f32) : FVec Ideal S1024x256 .f32 :=
  addf (matmul dot_S1024x256_S256x256_S1024x256_1_0_0_1_n_n (some .fp32) h (shapeCast S256x256 w shapeCasts_S1x256x256_S256x256) (constant (F := Ideal) S1024x256 .f32 0x00000000#32))
    (broadcastTo S1024x256 (shapeCast S1x256 (shapeCast S256 b shapeCasts_S1x256_S256) shapeCasts_S256_S1x256) broadcasts_S1x256_S1024x256)

/-- The stored block is three such layers of the accumulator. -/
theorem pay3_eq (v17 : Vec Ideal S1024x256 .f32) (v18 : Vec Ideal S1x256x256 .f32) (v20 : Vec Ideal S1x256 .f32) (v26 : Vec Ideal S1x256x256 .f32) (v28 : Vec Ideal S1x256 .f32) (v34 : Vec Ideal S1x256x256 .f32) (v36 : Vec Ideal S1x256 .f32) :
    k0_pay3 (F := Ideal) v17 v18 v20 v26 v28 v34 v36 = klayer (klayer (klayer v17 v18 v20) v26 v28) v34 v36 := rfl

/-- A layer at `(p, q)`: the sum over the features of the row times the weight slice's column, plus the bias slice's entry. -/
theorem klayer_apply (h : FVec Ideal S1024x256 .f32) (w : FVec Ideal S1x256x256 .f32) (b : FVec Ideal S1x256 .f32) (p : Fin 1024) (q : Fin 256) :
    klayer h w b (ix2 p q) = (∑ k : Fin 256, h (ix2 p k) * w (ix3 (0 : Fin 1) k q)) + b (ix2 (0 : Fin 1) q) := by
  unfold klayer
  have hw : ∀ k : Fin 256, shapeCast S256x256 w shapeCasts_S1x256x256_S256x256 (ix2 k q) = w (ix3 (0 : Fin 1) k q) := fun k =>
    shapeCast_apply w shapeCasts_S1x256x256_S256x256 (ix2 k q) (ix3 (0 : Fin 1) k q)
      (by rewrite [Shape.rowMajor_val_three, Shape.rowMajor_val_two]; show (0 * 256 + k.val) * 256 + q.val = k.val * 256 + q.val; omega)
  have hb : broadcastTo S1024x256 (shapeCast S1x256 (shapeCast S256 b shapeCasts_S1x256_S256) shapeCasts_S256_S1x256) broadcasts_S1x256_S1024x256 (ix2 p q)
      = b (ix2 (0 : Fin 1) q) := by
    refine (broadcastTo_apply _ broadcasts_S1x256_S1024x256 (ix2 p q) (ix2 (0 : Fin 1) q) (fun a => ?_)).trans ?_
    · match a with
      | ⟨0, _⟩ => rfl
      | ⟨1, _⟩ => rfl
    refine (shapeCast_apply _ shapeCasts_S256_S1x256 (ix2 (0 : Fin 1) q) (ix1 q)
      (by rewrite [Shape.rowMajor_val_one, Shape.rowMajor_val_two]; show q.val = 0 * 256 + q.val; omega)).trans ?_
    exact shapeCast_apply b shapeCasts_S1x256_S256 (ix1 q) (ix2 (0 : Fin 1) q)
      (by rewrite [Shape.rowMajor_val_one, Shape.rowMajor_val_two]; show 0 * 256 + q.val = q.val; omega)
  show FloatOps.matmul dot_S1024x256_S256x256_S1024x256_1_0_0_1_n_n (some .fp32) h (shapeCast S256x256 w shapeCasts_S1x256x256_S256x256) (constant (F := Ideal) S1024x256 .f32 0x00000000#32) (ix2 p q)
    + broadcastTo S1024x256 (shapeCast S1x256 (shapeCast S256 b shapeCasts_S1x256_S256) shapeCasts_S256_S1x256) broadcasts_S1x256_S1024x256 (ix2 p q) = _
  rw [mmB_apply, hb]
  exact congrArg (· + b (ix2 (0 : Fin 1) q)) (Finset.sum_congr rfl fun k _ => by rw [hw k])

/-! ## The arrays and the blocks, by their literal types -/

section
variable (V : (c : Dev nD) → (b : Ref sig .tc) → Buf (Elt Ideal) ((c : Thread nD τ).loc b))

/-- The adjacency table, the embedding table, the stacked transposed weights and the stacked biases as the region finds them. -/
abbrev arrA (c : Dev nD) : Vec Ideal S8192x8192 .f32 := V c main_arg1
abbrev arrE (c : Dev nD) : Vec Ideal S8192x256 .f32 := V c main_arg2
abbrev arrWT (c : Dev nD) : Vec Ideal S3x256x256 .f32 := V c main_v4
abbrev arrB (c : Dev nD) : Vec Ideal S3x256 .f32 := V c main_arg4

/-- Their blocks at point `t`. -/
abbrev blkA (c : Dev nD) (t : Fin cfg0.N) : Vec Ideal S1024x2048 .f32 := iblk0 V c 0 t
abbrev blkE (c : Dev nD) (t : Fin cfg0.N) : Vec Ideal S8192x256 .f32 := iblk0 V c 1 t
abbrev blkW (c : Dev nD) (t : Fin cfg0.N) : Vec Ideal S3x256x256 .f32 := iblk0 V c 2 t
abbrev blkB (c : Dev nD) (t : Fin cfg0.N) : Vec Ideal S3x256 .f32 := iblk0 V c 3 t

/-- The printed index maps over the grid: point `t` is row-block `t / 4` and K-step `t % 4`; the three small operands are
    whole at every point; the output block is row-block `t / 4`. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val / 4 ∧ win0_4.index t (1 : Fin 2) = 0
    ∧ (grid0.coords t (1 : Fin 2)).val = t.val % 4 :=
  (by decide +kernel : ∀ t : Fin grid0.N, _)

theorem tlt (t : Fin cfg0.N) : t.val < 32 := lt_of_lt_of_eq t.isLt (show cfg0.N = 32 from N_0)

/-- The adjacency block at `(p, j)` is the table at row `1024 (t / 4) + p`, column `2048 (t % 4) + j`. -/
theorem blkA_apply (c : Dev nD) (t : Fin cfg0.N) (x : S1024x2048.Idx) (k : S8192x8192.Idx)
    (hk0 : (k 0).val = 1024 * (t.val / 4) + (x 0).val) (hk1 : (k 1).val = 2048 * (t.val % 4) + (x 1).val) :
    blkA V c t x = arrA V c k := by
  obtain ⟨e0, e1, -⟩ := idx_facts t
  unfold blkA iblk0
  rw [View.read_apply]
  show V c main_arg1 _ = V c main_arg1 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 2048 + 1 * (x 1).val = (k 1).val; rw [e1, hk1]; omega

/-- The embedding block is the whole table. -/
theorem blkE_apply (c : Dev nD) (t : Fin cfg0.N) (x k : S8192x256.Idx)
    (hk0 : (k 0).val = (x 0).val) (hk1 : (k 1).val = (x 1).val) : blkE V c t x = arrE V c k := by
  obtain ⟨-, -, e0, e1, -⟩ := idx_facts t
  unfold blkE iblk0
  rw [View.read_apply]
  show V c main_arg2 _ = V c main_arg2 _
  congr 1
  funext a
  apply Fin.ext
  match a with
  | ⟨0, _⟩ => show win0_1.index t (0 : Fin 2) * 8192 + 1 * (x 0).val = (k 0).val; rw [e0, hk0]; omega
  | ⟨1, _⟩ => show win0_1.index t (1 : Fin 2) * 256 + 1 * (x 1).val = (k 1).val; rw [e1, hk1]; omega

/-- The weight block is the whole stack. -/
theorem blkW_apply (c : Dev nD) (t : Fin cfg0.N) (x k : S3x256x256.Idx)
    (hk0 : (k 0).val = (x 0).val) (hk1 : (k 1).val = (x 1).val) (hk2 : (k 2).val = (x 2).val) : blkW V c t x = arrWT V c k := by
  obtain ⟨-, -, -, -, e0, e1, e2, -⟩ := idx_facts t
  unfold blkW iblk0
  rw [View.read_apply]
  show V c main_v4 _ = V c main_v4 _
  congr 1
  funext a
  apply Fin.ext
  match a with
  | ⟨0, _⟩ => show win0_2.index t (0 : Fin 3) * 3 + 1 * (x 0).val = (k 0).val; rw [e0, hk0]; omega
  | ⟨1, _⟩ => show win0_2.index t (1 : Fin 3) * 256 + 1 * (x 1).val = (k 1).val; rw [e1, hk1]; omega
  | ⟨2, _⟩ => show win0_2.index t (2 : Fin 3) * 256 + 1 * (x 2).val = (k 2).val; rw [e2, hk2]; omega

/-- The bias block is the whole stack. -/
theorem blkB_apply (c : Dev nD) (t : Fin cfg0.N) (x k : S3x256.Idx)
    (hk0 : (k 0).val = (x 0).val) (hk1 : (k 1).val = (x 1).val) : blkB V c t x = arrB V c k := by
  obtain ⟨-, -, -, -, -, -, -, e0, e1, -⟩ := idx_facts t
  unfold blkB iblk0
  rw [View.read_apply]
  show V c main_arg4 _ = V c main_arg4 _
  congr 1
  funext a
  apply Fin.ext
  match a with
  | ⟨0, _⟩ => show win0_3.index t (0 : Fin 2) * 3 + 1 * (x 0).val = (k 0).val; rw [e0, hk0]; omega
  | ⟨1, _⟩ => show win0_3.index t (1 : Fin 2) * 256 + 1 * (x 1).val = (k 1).val; rw [e1, hk1]; omega

end

/-! ## The accumulator after each point -/

section
variable (V : (c : Dev nD) → (b : Ref sig .tc) → Buf (Elt Ideal) ((c : Thread nD τ).loc b))

/-- The adjacency table read at natural-number coordinates (zero outside the table). -/
def Aat (c : Dev nD) (r k : ℕ) : EReal := if h : r < 8192 ∧ k < 8192 then arrA V c (ix2 ⟨r, h.1⟩ ⟨k, h.2⟩) else 0
/-- The embedding table read at a natural-number row (zero outside the table). -/
def Eat (c : Dev nD) (k : ℕ) (q : Fin 256) : EReal := if h : k < 8192 then arrE V c (ix2 ⟨k, h⟩ q) else 0

theorem Aat_eq (c : Dev nD) (r k : Fin 8192) (r' k' : ℕ) (hr : r' = r.val) (hk : k' = k.val) :
    Aat V c r' k' = arrA V c (ix2 r k) := by
  subst hr hk; unfold Aat; rw [dif_pos ⟨r.isLt, k.isLt⟩]
theorem Eat_eq (c : Dev nD) (k : Fin 8192) (k' : ℕ) (hk : k' = k.val) (q : Fin 256) :
    Eat V c k' q = arrE V c (ix2 k q) := by
  subst hk; unfold Eat; rw [dif_pos k.isLt]

/-- K-step `kk`'s share of entry `(r, q)` of `A · emb`: the sum over the step's 2048 columns. -/
def tileSum (c : Dev nD) (r kk : ℕ) (q : Fin 256) : EReal :=
  ∑ j : Fin 2048, Aat V c r (2048 * kk + j.val) * Eat V c (2048 * kk + j.val) q
/-- The shares of the first `m` K-steps. -/
def psum (c : Dev nD) (r m : ℕ) (q : Fin 256) : EReal := ∑ kk ∈ Finset.range m, tileSum V c r kk q

/-- The adjacency block at `(p, j)`. -/
theorem blkA_at (c : Dev nD) (t : Fin cfg0.N) (p : Fin 1024) (j : Fin 2048) :
    blkA V c t (ix2 p j) = Aat V c (1024 * (t.val / 4) + p.val) (2048 * (t.val % 4) + j.val) := by
  have ht := tlt t
  have hr : 1024 * (t.val / 4) + p.val < 8192 := by have := p.isLt; omega
  have hk : 2048 * (t.val % 4) + j.val < 8192 := by have := j.isLt; omega
  rw [Aat_eq V c ⟨_, hr⟩ ⟨_, hk⟩ _ _ rfl rfl]
  exact blkA_apply V c t (ix2 p j) _ rfl rfl

/-- The step's rows of the embedding block at `(j, q)`. -/
theorem tileE_at (c : Dev nD) (t : Fin cfg0.N) (j : Fin 2048) (q : Fin 256) :
    etile (grid0.coords t) (blkE V c t) (ix2 j q) = Eat V c (2048 * (t.val % 4) + j.val) q := by
  obtain ⟨-, -, -, -, -, -, -, -, -, -, -, eK⟩ := idx_facts t
  have hk : 2048 * (t.val % 4) + j.val < 8192 := by have := j.isLt; omega
  rw [Eat_eq V c ⟨_, hk⟩ _ rfl q]
  show blkE V c t ((Rect.unit (s := S8192x256) (k0_off1 (grid0.coords t)) S2048x256.size (k0_off1_inb (grid0.coords t))).toLoadRect.idx (ix2 j q)) = _
  refine blkE_apply V c t _ _ ?_ ?_
  · show 2048 * (t.val % 4) + j.val = k0_off1 (grid0.coords t) 0 + 1 * j.val
    rw [k0_off1_eq]
    show 2048 * (t.val % 4) + j.val = 2048 * (grid0.coords t (1 : Fin 2)).val + 1 * j.val
    rw [eK]; omega
  · show q.val = k0_off1 (grid0.coords t) 1 + 1 * q.val
    rw [k0_off1_eq]
    show q.val = 0 + 1 * q.val
    omega

/-- The step's partial product at `(p, q)` is its share of row `1024 (t / 4) + p`. -/
theorem step_sum (c : Dev nD) (t : Fin cfg0.N) (p : Fin 1024) (q : Fin 256) :
    ∑ j : Fin 2048, blkA V c t (ix2 p j) * etile (grid0.coords t) (blkE V c t) (ix2 j q)
      = tileSum V c (1024 * (t.val / 4) + p.val) (t.val % 4) q :=
  Finset.sum_congr rfl fun j _ => by rw [blkA_at, tileE_at]

/-- After a first K-step the accumulator holds the step's share. -/
theorem acc_A (c : Dev nD) (t : Fin cfg0.N) (h0 : t.val % 4 = 0) (h1 : ¬t.val % 4 = 3) (p : Fin 1024) (q : Fin 256) :
    (outsAt0 V c t.val t.isLt).2 (ix2 p q) = tileSum V c (1024 * (t.val / 4) + p.val) (t.val % 4) q := by
  rw [outsAt0_A V c t h0 h1]
  dsimp only
  refine (congrFun (soutA_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (blkA V c t) (blkE V c t) (blkW V c t) (blkB V c t)) (ix2 p q)).trans ?_
  rw [pay2_apply, pay1_apply, zero_add, step_sum]

/-- After a later K-step it holds what the step before left plus the step's share. -/
theorem acc_BC (c : Dev nD) (t : Fin cfg0.N) (h0 : ¬t.val % 4 = 0) (p : Fin 1024) (q : Fin 256) :
    (outsAt0 V c t.val t.isLt).2 (ix2 p q)
      = (outsAt0 V c (t.val - 1) (Nat.lt_of_le_of_lt (Nat.sub_le _ _) t.isLt)).2 (ix2 p q)
        + tileSum V c (1024 * (t.val / 4) + p.val) (t.val % 4) q := by
  by_cases h1 : t.val % 4 = 3
  · rw [outsAt0_C V c t h0 h1]
    dsimp only
    refine (congrFun (soutC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (blkA V c t) (blkE V c t) (blkW V c t) (blkB V c t) (outsAt0 V c (t.val - 1) (Nat.lt_of_le_of_lt (Nat.sub_le _ _) t.isLt)).2) (ix2 p q)).trans ?_
    rw [pay2_apply, step_sum]
  · rw [outsAt0_B V c t h0 h1]
    dsimp only
    refine (congrFun (soutB_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (blkA V c t) (blkE V c t) (blkW V c t) (blkB V c t) (outsAt0 V c (t.val - 1) (Nat.lt_of_le_of_lt (Nat.sub_le _ _) t.isLt)).2) (ix2 p q)).trans ?_
    rw [pay2_apply, step_sum]

/-- THE ACCUMULATOR AFTER POINT `n`: the shares of the K-steps of its row-block so far. -/
theorem acc_eq (c : Dev nD) : ∀ (n : ℕ) (h : n < cfg0.N) (p : Fin 1024) (q : Fin 256),
    (outsAt0 V c n h).2 (ix2 p q) = psum V c (1024 * (n / 4) + p.val) (n % 4 + 1) q
  | 0, h, p, q => by
    refine (acc_A V c ⟨0, h⟩ rfl (by show ¬((0 : ℕ) % 4 = 3); decide) p q).trans ?_
    show tileSum V c (1024 * (0 / 4) + p.val) (0 % 4) q = psum V c (1024 * (0 / 4) + p.val) (0 % 4 + 1) q
    unfold psum
    rw [show 0 % 4 + 1 = 1 from rfl, Finset.sum_range_one]
  | n + 1, h, p, q => by
    by_cases h0 : (n + 1) % 4 = 0
    · refine (acc_A V c ⟨n + 1, h⟩ h0 (by show ¬(n + 1) % 4 = 3; omega) p q).trans ?_
      show tileSum V c (1024 * ((n + 1) / 4) + p.val) ((n + 1) % 4) q = psum V c (1024 * ((n + 1) / 4) + p.val) ((n + 1) % 4 + 1) q
      unfold psum
      rw [h0, Finset.sum_range_one]
    · refine (acc_BC V c ⟨n + 1, h⟩ h0 p q).trans ?_
      show (outsAt0 V c n _).2 (ix2 p q) + tileSum V c (1024 * ((n + 1) / 4) + p.val) ((n + 1) % 4) q = _
      rw [acc_eq c n _ p q]
      have e1 : n / 4 = (n + 1) / 4 := by omega
      have e2 : n % 4 + 1 = (n + 1) % 4 := by omega
      rw [e1, e2]
      unfold psum
      rw [Finset.sum_range_succ]

/-- The four shares of a row are its row of `A · emb`. -/
theorem psum_four (c : Dev nD) (r : Fin 8192) (q : Fin 256) :
    psum V c r.val 4 q = Cert.Spec.agg (arrA V c) (arrE V c) r q := by
  unfold psum tileSum Cert.Spec.agg
  rw [Finset.sum_range, ← Equiv.sum_comp (finProdFinEquiv (m := 4) (n := 2048)), Fintype.sum_prod_type]
  refine Finset.sum_congr rfl fun a _ => Finset.sum_congr rfl fun b _ => ?_
  have hv : (finProdFinEquiv (m := 4) (n := 2048) (a, b)).val = b.val + 2048 * a.val := rfl
  rw [Aat_eq V c r (finProdFinEquiv (m := 4) (n := 2048) (a, b)) _ _ rfl (by rw [hv]; omega),
    Eat_eq V c (finProdFinEquiv (m := 4) (n := 2048) (a, b)) _ (by rw [hv]; omega) q]

end

/-! ## The output block at the last K-step, and the array after the run -/

/-- A layer as the last K-step computes it, over a weight slice that is layer `l` of `W` transposed and a bias slice
    that is layer `l` of `B`, is the specification's layer `l` of the row. -/
theorem klayer_spec (l : Fin 3) (h : FVec Ideal S1024x256 .f32) (w : FVec Ideal S1x256x256 .f32) (b : FVec Ideal S1x256 .f32)
    (W : Vec Ideal S3x256x256 .f32) (B : Vec Ideal S3x256 .f32)
    (hw : ∀ k d : Fin 256, w (ix3 (0 : Fin 1) k d) = W (ix3 l d k)) (hb : ∀ d : Fin 256, b (ix2 (0 : Fin 1) d) = B (ix2 l d))
    (p : Fin 1024) (q : Fin 256) :
    klayer h w b (ix2 p q) = Cert.Spec.layer W B l (fun k => h (ix2 p k)) q := by
  rw [klayer_apply, hb]
  unfold Cert.Spec.layer
  exact congrArg (· + B (ix2 l q)) (Finset.sum_congr rfl fun k _ => by rw [hw k q])

section
variable (V : (c : Dev nD) → (b : Ref sig .tc) → Buf (Elt Ideal) ((c : Thread nD τ).loc b))

/-- The weight slices the last K-step loads are the layers of the stack as the region finds it. -/
theorem wsl0_at (c : Dev nD) (t : Fin cfg0.N) (k d : Fin 256) :
    wsl0 (blkW V c t) (ix3 (0 : Fin 1) k d) = arrWT V c (ix3 (0 : Fin 3) k d) := by
  show blkW V c t ((Rect.unit (s := S3x256x256) ![0, 0, 0] S1x256x256.size inb_S3x256x256_S1x256x256_0_0_0).toLoadRect.idx (ix3 (0 : Fin 1) k d)) = _
  refine blkW_apply V c t _ _ ?_ ?_ ?_
  · show (0 : ℕ) = 0 + 1 * 0; omega
  · show k.val = 0 + 1 * k.val; omega
  · show d.val = 0 + 1 * d.val; omega
theorem wsl1_at (c : Dev nD) (t : Fin cfg0.N) (k d : Fin 256) :
    wsl1 (blkW V c t) (ix3 (0 : Fin 1) k d) = arrWT V c (ix3 (1 : Fin 3) k d) := by
  show blkW V c t ((Rect.unit (s := S3x256x256) ![1, 0, 0] S1x256x256.size inb_S3x256x256_S1x256x256_1_0_0).toLoadRect.idx (ix3 (0 : Fin 1) k d)) = _
  refine blkW_apply V c t _ _ ?_ ?_ ?_
  · show (1 : ℕ) = 1 + 1 * 0; omega
  · show k.val = 0 + 1 * k.val; omega
  · show d.val = 0 + 1 * d.val; omega
theorem wsl2_at (c : Dev nD) (t : Fin cfg0.N) (k d : Fin 256) :
    wsl2 (blkW V c t) (ix3 (0 : Fin 1) k d) = arrWT V c (ix3 (2 : Fin 3) k d) := by
  show blkW V c t ((Rect.unit (s := S3x256x256) ![2, 0, 0] S1x256x256.size inb_S3x256x256_S1x256x256_2_0_0).toLoadRect.idx (ix3 (0 : Fin 1) k d)) = _
  refine blkW_apply V c t _ _ ?_ ?_ ?_
  · show (2 : ℕ) = 2 + 1 * 0; omega
  · show k.val = 0 + 1 * k.val; omega
  · show d.val = 0 + 1 * d.val; omega
/-- The bias slices likewise. -/
theorem bsl0_at (c : Dev nD) (t : Fin cfg0.N) (d : Fin 256) :
    bsl0 (blkB V c t) (ix2 (0 : Fin 1) d) = arrB V c (ix2 (0 : Fin 3) d) := by
  show blkB V c t ((Rect.unit (s := S3x256) ![0, 0] S1x256.size inb_S3x256_S1x256_0_0).toLoadRect.idx (ix2 (0 : Fin 1) d)) = _
  refine blkB_apply V c t _ _ ?_ ?_
  · show (0 : ℕ) = 0 + 1 * 0; omega
  · show d.val = 0 + 1 * d.val; omega
theorem bsl1_at (c : Dev nD) (t : Fin cfg0.N) (d : Fin 256) :
    bsl1 (blkB V c t) (ix2 (0 : Fin 1) d) = arrB V c (ix2 (1 : Fin 3) d) := by
  show blkB V c t ((Rect.unit (s := S3x256) ![1, 0] S1x256.size inb_S3x256_S1x256_1_0).toLoadRect.idx (ix2 (0 : Fin 1) d)) = _
  refine blkB_apply V c t _ _ ?_ ?_
  · show (1 : ℕ) = 1 + 1 * 0; omega
  · show d.val = 0 + 1 * d.val; omega
theorem bsl2_at (c : Dev nD) (t : Fin cfg0.N) (d : Fin 256) :
    bsl2 (blkB V c t) (ix2 (0 : Fin 1) d) = arrB V c (ix2 (2 : Fin 3) d) := by
  show blkB V c t ((Rect.unit (s := S3x256) ![2, 0] S1x256.size inb_S3x256_S1x256_2_0).toLoadRect.idx (ix2 (0 : Fin 1) d)) = _
  refine blkB_apply V c t _ _ ?_ ?_
  · show (2 : ℕ) = 2 + 1 * 0; omega
  · show d.val = 0 + 1 * d.val; omega

/-- The array the region's output ends holding: every node's features. -/
abbrev featArr (c : Dev nD) (W : Vec Ideal S3x256x256 .f32) : Vec Ideal S8192x256 .f32 :=
  fun i => Cert.Spec.feat (arrA V c) (arrE V c) W (arrB V c) ⟨(i 0).val, idx2_lt0 i⟩ ⟨(i 1).val, idx2_lt1 i⟩

/-- THE OUTPUT BLOCK AT A LAST K-STEP, entry `(p, q)`: the features of node `1024 (t / 4) + p`. -/
theorem out_ix (c : Dev nD) (t : Fin cfg0.N) (h1 : t.val % 4 = 3) (W : Vec Ideal S3x256x256 .f32)
    (hWT : ∀ (l : Fin 3) (k d : Fin 256), arrWT V c (ix3 l k d) = W (ix3 l d k)) (p : Fin 1024) (q : Fin 256)
    (r : Fin 8192) (hr : r.val = 1024 * (t.val / 4) + p.val) :
    (outsAt0 V c t.val t.isLt).1 (ix2 p q) = Cert.Spec.feat (arrA V c) (arrE V c) W (arrB V c) r q := by
  have h0 : ¬t.val % 4 = 0 := by omega
  have ht := tlt t
  -- the finished accumulator, row `p`: row `r` of `A · emb`
  have hacc : ∀ k : Fin 256, k0_pay2 (F := Ideal) (etile (grid0.coords t) (blkE V c t))
      (outsAt0 V c (t.val - 1) (Nat.lt_of_le_of_lt (Nat.sub_le _ _) t.isLt)).2 (blkA V c t) (ix2 p k)
        = Cert.Spec.agg (arrA V c) (arrE V c) r k := by
    intro k
    rw [pay2_apply, step_sum, acc_eq V c (t.val - 1) _ p k, ← psum_four V c r k, hr]
    have e1 : (t.val - 1) / 4 = t.val / 4 := by omega
    have e2 : (t.val - 1) % 4 + 1 = 3 := by omega
    rw [e1, e2, h1]
    unfold psum
    exact (Finset.sum_range_succ (fun kk => tileSum V c (1024 * (t.val / 4) + p.val) kk k) 3).symm
  rw [outsAt0_C V c t h0 h1]
  dsimp only
  refine (congrFun (outC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (blkA V c t) (blkE V c t) (blkW V c t) (blkB V c t) (outsAt0 V c (t.val - 1) (Nat.lt_of_le_of_lt (Nat.sub_le _ _) t.isLt)).2) (ix2 p q)).trans ?_
  rw [pay3_eq]
  unfold Cert.Spec.feat
  refine (klayer_spec 2 _ _ _ W (arrB V c) (fun k d => (wsl2_at V c t k d).trans (hWT 2 k d)) (bsl2_at V c t) p q).trans ?_
  refine congrArg (fun h => Cert.Spec.layer W (arrB V c) 2 h q) (funext fun k => ?_)
  refine (klayer_spec 1 _ _ _ W (arrB V c) (fun k d => (wsl1_at V c t k d).trans (hWT 1 k d)) (bsl1_at V c t) p k).trans ?_
  refine congrArg (fun h => Cert.Spec.layer W (arrB V c) 1 h k) (funext fun k' => ?_)
  refine (klayer_spec 0 _ _ _ W (arrB V c) (fun k d => (wsl0_at V c t k d).trans (hWT 0 k d)) (bsl0_at V c t) p k').trans ?_
  refine congrArg (fun h => Cert.Spec.layer W (arrB V c) 0 h k') (funext fun k'' => ?_)
  exact hacc k''

/-- The same at any index of the block, against any index of the array that names the same node and feature. -/
theorem out_apply (c : Dev nD) (t : Fin cfg0.N) (h1 : t.val % 4 = 3) (W : Vec Ideal S3x256x256 .f32)
    (hWT : ∀ (l : Fin 3) (k d : Fin 256), arrWT V c (ix3 l k d) = W (ix3 l d k)) (y : S1024x256.Idx) (i : S8192x256.Idx)
    (hi0 : (i 0).val = 1024 * (t.val / 4) + (y 0).val) (hi1 : (i 1).val = (y 1).val) :
    (outsAt0 V c t.val t.isLt).1 y = featArr V c W i := by
  obtain ⟨p, q, rfl⟩ : ∃ (p : Fin 1024) (q : Fin 256), y = ix2 p q := ⟨y 0, y 1, eq_ix2 y⟩
  rw [out_ix V c t h1 W hWT p q ⟨(i 0).val, idx2_lt0 i⟩ hi0]
  show _ = Cert.Spec.feat (arrA V c) (arrE V c) W (arrB V c) ⟨(i 0).val, idx2_lt0 i⟩ ⟨(i 1).val, idx2_lt1 i⟩
  exact congrArg _ (Fin.ext hi1.symm)

/-- WHAT A LAST K-STEP WRITES BACK is its block of the feature array. -/
theorem flushed_eq (c : Dev nD) (W : Vec Ideal S3x256x256 .f32)
    (hWT : ∀ (l : Fin 3) (k d : Fin 256), arrWT V c (ix3 l k d) = W (ix3 l d k)) (t : Fin cfg0.N) (hf : (cfg0.win 4).flush t = true) :
    (dat0 (F := Ideal) V c).flushed 4 t = ((cfg0.win 4).blk t).view.read (Elt Ideal) (featArr V c W) := by
  have h3 : t.val % 4 = 3 := (flush0_4 t).mp hf
  obtain ⟨-, -, -, -, -, -, -, -, -, e0, e1, -⟩ := idx_facts t
  show (cfg0.win 4).cut (grid0.coords t) ((dat0 (F := Ideal) V c).after 4 t) = _
  rw [after0_4]
  funext y
  rw [View.read_apply]
  show (outsAt0 V c t.val t.isLt).1 y = featArr V c W (((cfg0.win 4).blk t).view.emb y)
  refine out_apply V c t h3 W hWT y _ ?_ ?_
  · show win0_4.index t (0 : Fin 2) * 1024 + 1 * (y 0).val = 1024 * (t.val / 4) + (y 0).val
    rw [e0]; omega
  · show win0_4.index t (1 : Fin 2) * 256 + 1 * (y 1).val = (y 1).val
    rw [e1]; omega

/-- An index of the array is in point `t`'s output block iff each coordinate is in the block's range on its axis. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v5).slice (win0_4.rect t)).set ↔ _
  rw [View.set_slice_whole, Rect.mem_set_unit]
  exact Iff.rfl

/-- Row `r` is written back by the last K-step of its row-block. -/
theorem cover4 (i : S8192x256.Idx) : ∃ t : Fin cfg0.N, (cfg0.win 4).flush t = true ∧ i ∈ ((cfg0.win 4).blk t).view.set := by
  have hi0 : (i 0).val < 8192 := idx2_lt0 i
  have hi1 : (i 1).val < 256 := idx2_lt1 i
  have hN : cfg0.N = 32 := N_0
  let t : Fin cfg0.N := ⟨4 * ((i 0).val / 1024) + 3, by rw [hN]; omega⟩
  have htv : t.val = 4 * ((i 0).val / 1024) + 3 := rfl
  obtain ⟨-, -, -, -, -, -, -, -, -, e0, e1, -⟩ := idx_facts t
  refine ⟨t, (flush0_4 t).mpr (by rw [htv]; omega), ?_⟩
  rw [mem_blk4]
  intro a
  match a with
  | ⟨0, _⟩ => show win0_4.index t (0 : Fin 2) * 1024 ≤ (i 0).val ∧ (i 0).val < win0_4.index t (0 : Fin 2) * 1024 + 1024
              rw [e0, htv]; omega
  | ⟨1, _⟩ => show win0_4.index t (1 : Fin 2) * 256 ≤ (i 1).val ∧ (i 1).val < win0_4.index t (1 : Fin 2) * 256 + 256
              rw [e1]; omega

/-- THE REGION'S OUTPUT ARRAY AFTER THE RUN: entry `(i, d)` is feature `d` of node `i`. -/
theorem region0_value (c : Dev nD) (W : Vec Ideal S3x256x256 .f32)
    (hWT : ∀ (l : Fin 3) (k d : Fin 256), arrWT V c (ix3 l k d) = W (ix3 l d k)) (i : Fin 8192) (d : Fin 256) :
    (dat0 (F := Ideal) V c).arrAt 4 cfg0.N (ix2 i d) = Cert.Spec.feat (arrA V c) (arrE V c) W (arrB V c) i d := by
  rw [(dat0 (F := Ideal) V c).arrAt_eq_of_cover 4 (featArr V c W) (flushed_eq V c W hWT) cover4]

end

end Cert.KernelIdeal.Val

end
-- ==== Proof.R1Value.lean ====
/-
  The value of the second kernel region, and of the reshape that closes the program.

  The region runs over four points. Point `t` loads rows `2048·t … 2048·t + 2047` of the two gathered feature tables,
  forms for each row the three lane sums `⟨u, v⟩`, `⟨u, u⟩`, `⟨v, v⟩` of the two rows `u`, `v`, and stores
  `max (|⟨u, v⟩| / (√⟨u, u⟩ · √⟨v, v⟩)) 0` for its 2048 rows as block `(t, 0, 0)` of a 4×1×2048 array. The four blocks tile
  that array, so after the region its entry `(t, 0, j)` is the clipped absolute cosine of the tables' rows `2048·t + j`.
  The reshape that follows lists the 4×1×2048 entries in row-major order: entry `r` of the 8192 is entry
  `(r / 2048, 0, r % 2048)`.
-/
import proofs.«406657_j56633438765545_2_alg».proof.Proof.R1
import proofs.«406657_j56633438765545_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ValB

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The body's arithmetic at an index -/

/-- A lane sum of a 2048×256 block at row `j`: the sum of the row's 256 entries. -/
theorem lane_sum (src : FVec Ideal S2048x256 .f32) (j : Fin 2048) :
    multiReduction (F := Ideal) .add [1] S2048 src 0x00000000#32 reduces_S2048x256_S2048 (.inl rfl) rfl (ix1 j)
      = ∑ d : Fin 256, src (ix2 j d) := by
  refine (Ideal.multiReduction_add_single src 0x00000000#32 reduces_S2048x256_S2048 (.inl rfl) rfl (ix1 j)).trans ?_
  refine Finset.sum_congr rfl fun d _ => congrArg src ?_
  funext a
  apply Fin.ext
  match a with
  | ⟨0, _⟩ => rfl
  | ⟨1, _⟩ => rfl

/-- The body's arithmetic on two blocks, before the 2048 results are re-labelled as a 1×1×2048 block: per row the
    three lane sums ⟨u, v⟩, ⟨u, u⟩, ⟨v, v⟩, then `max (|⟨u, v⟩| / (√⟨u, u⟩ · √⟨v, v⟩)) 0`. -/
def cosBlock (u v : FVec Ideal S2048x256 .f32) : FVec Ideal S2048 .f32 :=
  maximumf
    (divf (absf (multiReduction .add [1] S2048 (mulf u v) 0x00000000#32 reduces_S2048x256_S2048 (.inl rfl) rfl))
      (mulf (sqrt (multiReduction .add [1] S2048 (mulf u u) 0x00000000#32 reduces_S2048x256_S2048 (.inl rfl) rfl))
        (sqrt (multiReduction .add [1] S2048 (mulf v v) 0x00000000#32 reduces_S2048x256_S2048 (.inl rfl) rfl))))
    (broadcast S2048 (Scalar.ofBits .f32 0x00000000#32))

/-- The stored value is that arithmetic of the two loaded blocks, re-labelled. -/
theorem pay_eq (x0 x1 : Vec Ideal S2048x256 .f32) :
    k1_pay1 x0 x1 = shapeCast S1x1x2048 (cosBlock (shapeCast S2048x256 x0 shapeCasts_S2048x256_S2048x256)
      (shapeCast S2048x256 x1 shapeCasts_S2048x256_S2048x256)) shapeCasts_S2048_S1x1x2048 := rfl

/-- Row `j` of it is the clipped absolute cosine of the two blocks' rows `j`. -/
theorem cosBlock_apply (u v : FVec Ideal S2048x256 .f32) (j : Fin 2048) :
    cosBlock u v (ix1 j) = Cert.Spec.cosRelu (fun d => u (ix2 j d)) (fun d => v (ix2 j d)) := by
  show max (Ideal.div (max (multiReduction (F := Ideal) .add [1] S2048 (mulf u v) 0x00000000#32 reduces_S2048x256_S2048 (.inl rfl) rfl (ix1 j)) (-(multiReduction (F := Ideal) .add [1] S2048 (mulf u v) 0x00000000#32 reduces_S2048x256_S2048 (.inl rfl) rfl (ix1 j))))
      (Ideal.sqrt (multiReduction (F := Ideal) .add [1] S2048 (mulf u u) 0x00000000#32 reduces_S2048x256_S2048 (.inl rfl) rfl (ix1 j))
        * Ideal.sqrt (multiReduction (F := Ideal) .add [1] S2048 (mulf v v) 0x00000000#32 reduces_S2048x256_S2048 (.inl rfl) rfl (ix1 j))))
    (Ideal.ofBits .f32 0x00000000#32) = _
  rw [lane_sum, lane_sum, lane_sum, Ideal.ofBits_zero_f32]
  rfl

/-- THE STORED BLOCK AT AN INDEX: entry (0, 0, j) is the clipped absolute cosine of rows `j` of the two loaded blocks. -/
theorem pay_apply (x0 x1 : Vec Ideal S2048x256 .f32) (j : Fin 2048) :
    k1_pay1 x0 x1 (ix3 (0 : Fin 1) (0 : Fin 1) j) = Cert.Spec.cosRelu (fun d => x0 (ix2 j d)) (fun d => x1 (ix2 j d)) := by
  rw [pay_eq, shapeCast_self, shapeCast_self]
  refine (shapeCast_apply _ _ (ix3 (0 : Fin 1) (0 : Fin 1) j) (ix1 j) ?_).trans (cosBlock_apply x0 x1 j)
  rw [Shape.rowMajor_val_one, Shape.rowMajor_val_three]
  show j.val = ((0 : Fin 1).val * 1 + (0 : Fin 1).val) * 2048 + j.val
  simp

/-! ## From the blocks to the array -/

/-- Row `2048·t + j` of a table: the row that entry (t, ·, j) of the output is computed from. -/
def rowAt (i : S4x1x2048.Idx) : Fin 8192 :=
  ⟨2048 * (i 0).val + (i 2).val, by have h0 : (i 0).val < 4 := (i 0).isLt; have h2 : (i 2).val < 2048 := (i 2).isLt; omega⟩

/-- The whole output as one function of two tables: entry (t, ·, j) is the clipped absolute cosine of the tables'
    rows `2048·t + j`. -/
def cosOf (A0 A1 : Vec Ideal S8192x256 .f32) : Vec Ideal S4x1x2048 .f32 :=
  fun i => Cert.Spec.cosRelu (fun d => A0 (ix2 (rowAt i) d)) (fun d => A1 (ix2 (rowAt i) d))

/-- One point, over plain blocks: if the two loaded blocks are rows `2048·t …` of the tables, the stored block at `y`
    is `cosOf` of the tables at the array index `k` that `y` lands on in block `t`. -/
theorem point_value (A0 A1 : Vec Ideal S8192x256 .f32) (x0 x1 : Vec Ideal S2048x256 .f32) (t : Nat) (ht : t < 4)
    (h0 : ∀ (j : Fin 2048) (d : Fin 256), x0 (ix2 j d) = A0 (ix2 (⟨2048 * t + j.val, by omega⟩ : Fin 8192) d))
    (h1 : ∀ (j : Fin 2048) (d : Fin 256), x1 (ix2 j d) = A1 (ix2 (⟨2048 * t + j.val, by omega⟩ : Fin 8192) d))
    (y : S1x1x2048.Idx) (k : S4x1x2048.Idx) (hk0 : (k 0).val = t) (hk2 : (k 2).val = (y 2).val) :
    k1_pay1 x0 x1 y = cosOf A0 A1 k := by
  obtain ⟨a, b, j, rfl⟩ : ∃ (a : Fin 1) (b : Fin 1) (j : Fin 2048), y = ix3 a b j := ⟨y 0, y 1, y 2, eq_ix3 y⟩
  obtain rfl : a = 0 := Subsingleton.elim _ _
  obtain rfl : b = 0 := Subsingleton.elim _ _
  rw [pay_apply]
  have hr : rowAt k = (⟨2048 * t + j.val, by omega⟩ : Fin 8192) := Fin.ext (by
    show 2048 * (k 0).val + (k 2).val = 2048 * t + j.val
    rw [hk0, hk2])
  unfold cosOf
  rw [hr]
  simp only [h0, h1]

variable (V : (c : Dev nD) → (b : Ref sig .tc) → Buf (Elt Ideal) ((c : Thread nD τ).loc b))

/-- The two gathered tables as the region finds them. -/
abbrev arrS (c : Dev nD) : Vec Ideal S8192x256 .f32 := V c main_v6
abbrev arrD (c : Dev nD) : Vec Ideal S8192x256 .f32 := V c main_v7

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: point `t` takes block row `t` of each table and block `(t, 0, 0)` of the output. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The first table's block at point `t` is its rows `2048·t … 2048·t + 2047`. -/
theorem iblk_rows0 (c : Dev nD) (t : Fin cfg1.N) (x : S2048x256.Idx) (k : S8192x256.Idx)
    (hk0 : (k 0).val = 2048 * t.val + (x 0).val) (hk1 : (k 1).val = (x 1).val) :
    (Frm.iblk1 V c 0 t : Vec Ideal S2048x256 .f32) x = arrS V c k := by
  obtain ⟨e0, e1, -⟩ := idx_facts t
  unfold Frm.iblk1
  rw [View.read_apply]
  show V c main_v6 _ = V c main_v6 _
  congr 1
  funext a
  apply Fin.ext
  match a with
  | ⟨0, _⟩ => show win1_0.index t (0 : Fin 2) * 2048 + 1 * (x 0).val = (k 0).val; rw [e0, hk0]; omega
  | ⟨1, _⟩ => show win1_0.index t (1 : Fin 2) * 256 + 1 * (x 1).val = (k 1).val; rw [e1, hk1]; omega

/-- The second table's likewise. -/
theorem iblk_rows1 (c : Dev nD) (t : Fin cfg1.N) (x : S2048x256.Idx) (k : S8192x256.Idx)
    (hk0 : (k 0).val = 2048 * t.val + (x 0).val) (hk1 : (k 1).val = (x 1).val) :
    (Frm.iblk1 V c 1 t : Vec Ideal S2048x256 .f32) x = arrD V c k := by
  obtain ⟨-, -, e0, e1, -⟩ := idx_facts t
  unfold Frm.iblk1
  rw [View.read_apply]
  show V c main_v7 _ = V c main_v7 _
  congr 1
  funext a
  apply Fin.ext
  match a with
  | ⟨0, _⟩ => show win1_1.index t (0 : Fin 2) * 2048 + 1 * (x 0).val = (k 0).val; rw [e0, hk0]; omega
  | ⟨1, _⟩ => show win1_1.index t (1 : Fin 2) * 256 + 1 * (x 1).val = (k 1).val; rw [e1, hk1]; omega

/-- WHAT POINT `t` WRITES BACK is block `t` of `cosOf` of the two tables. -/
theorem flushed_eq (c : Dev nD) (t : Fin cfg1.N) :
    (Frm.dat1 (F := Ideal) V c).flushed 2 t = ((cfg1.win 2).blk t).view.read (Elt Ideal) (cosOf (arrS V c) (arrD V c)) := by
  have hN : cfg1.N = 4 := N_1
  have ht : t.val < 4 := hN ▸ t.isLt
  obtain ⟨-, -, -, -, e0, e1, e2⟩ := idx_facts t
  show (cfg1.win 2).cut (grid1.coords t) ((Frm.dat1 (F := Ideal) V c).after 2 t) = _
  rw [Frm.after1_2]
  unfold Frm.out1_2
  rw [View.canon_unit_zero hz3]
  simp only [View.ld_unit_zero (S := S2048x256) hz2]
  funext y
  show k1_pay1 (Frm.iblk1 V c 0 t) (Frm.iblk1 V c 1 t) y = cosOf (arrS V c) (arrD V c) (((cfg1.win 2).blk t).view.emb y)
  refine point_value (arrS V c) (arrD V c) (Frm.iblk1 V c 0 t) (Frm.iblk1 V c 1 t) t.val ht
    (fun j d => iblk_rows0 V c t (ix2 j d) (ix2 (⟨2048 * t.val + j.val, by omega⟩ : Fin 8192) d) rfl rfl)
    (fun j d => iblk_rows1 V c t (ix2 j d) (ix2 (⟨2048 * t.val + j.val, by omega⟩ : Fin 8192) d) rfl rfl)
    y (((cfg1.win 2).blk t).view.emb y) ?_ ?_
  · show win1_2.index t (0 : Fin 3) * 1 + 1 * (y 0).val = t.val
    have hy : (y 0).val < 1 := (y 0).isLt
    rw [e0]; omega
  · show win1_2.index t (2 : Fin 3) * 2048 + 1 * (y 2).val = (y 2).val
    rw [e2]; omega

/-- An index of the output is in point `t`'s block iff each coordinate is in the block's range on its axis. -/
theorem mem_blk (t : Fin cfg1.N) (i : S4x1x2048.Idx) :
    i ∈ ((cfg1.win 2).blk t).view.set ↔ ∀ a : Fin 3, win1_2.index t a * S1x1x2048.size a ≤ (i a).val ∧ (i a).val < win1_2.index t a * S1x1x2048.size a + S1x1x2048.size a := by
  show i ∈ ((View.whole main_v8).slice (win1_2.rect t)).set ↔ _
  rw [View.set_slice_whole, Rect.mem_set_unit]
  exact Iff.rfl

/-- Every entry `(t, ·, j)` lies in point `t`'s block, and every point writes its block back. -/
theorem covered (i : S4x1x2048.Idx) : ∃ t : Fin cfg1.N, (cfg1.win 2).flush t = true ∧ i ∈ ((cfg1.win 2).blk t).view.set := by
  have hN : cfg1.N = 4 := N_1
  have h0 : (i 0).val < 4 := (i 0).isLt
  have h1 : (i 1).val < 1 := (i 1).isLt
  have h2 : (i 2).val < 2048 := (i 2).isLt
  refine ⟨⟨(i 0).val, by omega⟩, flush1_2 _, ?_⟩
  obtain ⟨-, -, -, -, e0, e1, e2⟩ := idx_facts ⟨(i 0).val, by omega⟩
  have e0 : win1_2.index _ (0 : Fin 3) = (i 0).val := e0
  rw [mem_blk]
  intro a
  match a with
  | ⟨0, _⟩ => show win1_2.index _ (0 : Fin 3) * 1 ≤ (i 0).val ∧ (i 0).val < win1_2.index _ (0 : Fin 3) * 1 + 1; rw [e0]; omega
  | ⟨1, _⟩ => show win1_2.index _ (1 : Fin 3) * 1 ≤ (i 1).val ∧ (i 1).val < win1_2.index _ (1 : Fin 3) * 1 + 1; rw [e1]; omega
  | ⟨2, _⟩ => show win1_2.index _ (2 : Fin 3) * 2048 ≤ (i 2).val ∧ (i 2).val < win1_2.index _ (2 : Fin 3) * 2048 + 2048; rw [e2]; omega

/-- THE OUTPUT ARRAY after the region: `cosOf` of the two tables. -/
theorem final1 (c : Dev nD) : (Frm.dat1 (F := Ideal) V c).arrAt 2 cfg1.N = cosOf (arrS V c) (arrD V c) :=
  (Frm.dat1 (F := Ideal) V c).arrAt_eq_of_cover 2 (cosOf (arrS V c) (arrD V c)) (fun t _ => flushed_eq V c t) covered

/-- REGION 1'S VALUE: entry (t, 0, j) of the output array is the clipped absolute cosine of rows `2048·t + j` of the
    two gathered tables. -/
theorem region1_value (c : Dev nD) (t : Fin 4) (j : Fin 2048) :
    (Frm.dat1 (F := Ideal) V c).arrAt 2 cfg1.N (ix3 t (0 : Fin 1) j)
      = Cert.Spec.cosRelu (fun d => arrS V c (ix2 (⟨2048 * t.val + j.val, by omega⟩ : Fin 8192) d))
          (fun d => arrD V c (ix2 (⟨2048 * t.val + j.val, by omega⟩ : Fin 8192) d)) := by
  rw [final1]
  rfl

/-! ## The closing reshape -/

/-- The program's last operation re-labels the 4×1×2048 output as 8192 entries in row-major order: entry `r` is
    entry `(r / 2048, 0, r % 2048)`. -/
theorem final_reshape (Wv : Valuation τ sig (Elt Ideal)) (r : Fin 8192) :
    (StableHlo.after (hostOps2 (F := Ideal)) Wv (Proc.devRef .tc main_v9) : S8192.Idx → EReal) (ix1 r)
      = (Wv (Proc.devRef .tc main_v8) : S4x1x2048.Idx → EReal)
          (ix3 (⟨r.val / 2048, by omega⟩ : Fin 4) (0 : Fin 1) (⟨r.val % 2048, Nat.mod_lt _ (by decide)⟩ : Fin 2048)) := by
  have e : (StableHlo.after (hostOps2 (F := Ideal)) Wv (Proc.devRef .tc main_v9) : S8192.Idx → EReal)
      = shapeCast S8192 (Wv (Proc.devRef .tc main_v8) : S4x1x2048.Idx → EReal) shapeCasts_S4x1x2048_S8192 := by
    after_results
    rfl
  rw [e]
  refine shapeCast_apply _ _ (ix1 r) _ ?_
  show (S4x1x2048.rowMajor (ix3 (⟨r.val / 2048, by omega⟩ : Fin 4) (0 : Fin 1) (⟨r.val % 2048, Nat.mod_lt _ (by decide)⟩ : Fin 2048))).val = (S8192.rowMajor (ix1 r)).val
  rw [Shape.rowMajor_val_three, Shape.rowMajor_val_one]
  show (r.val / 2048 * 1 + (0 : Fin 1).val) * 2048 + r.val % 2048 = r.val
  have : ((0 : Fin 1).val) = 0 := rfl
  omega

end Cert.KernelIdeal.ValB

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.TakeValue.lean ====
/-
  The host stretches between the kernel regions, read entry by entry, and what the precondition says of one index word.

  The first stretch cuts the edge array into its two index columns and transposes each layer's weight matrix. Each of the
  two takes moves a word below zero up by 8192, gathers the feature table's row at the word (clamped into the table), and
  keeps the gathered row where the word passes the two range tests; with every word in range the mask is all ones and
  the result's row `r` is the table's row named by word `r`. The precondition's last conjunct bounds every word of the
  edge array by -8192 ≤ e < 8192, which is what puts the wrapped word in range.
-/
import proofs.«406657_j56633438765545_2_alg».proof.Proof.Gen.KernelIdeal.Launch
import proofs.«406657_j56633438765545_2_alg».proof.Proof.Gen.KernelIdeal.Regions
import proofs.«406657_j56633438765545_2_alg».proof.Defs
import proofs.«406657_j56633438765545_2_alg».proof.Proof.Spec
import proofs.«406657_j56633438765545_2_alg».proof.Proof.LibGatherRows
import Idealize.ShloMosaic.Lib.StableHlo.Run
import Idealize.ShloMosaic.Lib.StableHlo.Predicate
import Idealize.ShloMosaic.Lib.ReduceAll
import Idealize.ShloMosaic.Lib.ValueLayout
import Idealize.ShloMosaic.Lib.WordArith

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (Wv : Valuation τ sig (Elt Ideal))

/-! ## The first host stretch: the two index columns and the transposed weights -/

/-- The first index column is column 0 of the edge array. -/
theorem host0_src (r : Fin 8192) :
    (StableHlo.after (hostOps0 (F := Ideal)) Wv (Proc.devRef .tc main_v1) : S8192.Idx → BitVec 32) (ix1 r)
      = (Wv (Proc.devRef .tc main_arg0) : S8192x2.Idx → BitVec 32) (ix2 r (0 : Fin 2)) := by
  have e : (StableHlo.after (hostOps0 (F := Ideal)) Wv (Proc.devRef .tc main_v1) : S8192.Idx → BitVec 32)
      = shapeCast S8192 (extractStridedSlice S8192x1 ![0, 0]
          (Wv (Proc.devRef .tc main_arg0) : S8192x2.Idx → BitVec 32) slices_S8192x2_S8192x1_0_0) shapeCasts_S8192x1_S8192 := by
    show StableHlo.after (hostOps0 (F := Ideal)) Wv (Proc.devRef .tc main_v1) = _
    after_results; rfl
  rw [e, shapeCast_apply _ _ (ix1 r) (ix2 r (0 : Fin 1))
    (by rw [Shape.rowMajor_val_two, Shape.rowMajor_val_one]; show r.val * 1 + 0 = r.val; omega)]
  exact slice2_axis1_apply 0 _ _ r (0 : Fin 1) (0 : Fin 2) rfl

/-- The second index column is column 1 of the edge array. -/
theorem host0_dst (r : Fin 8192) :
    (StableHlo.after (hostOps0 (F := Ideal)) Wv (Proc.devRef .tc main_v3) : S8192.Idx → BitVec 32) (ix1 r)
      = (Wv (Proc.devRef .tc main_arg0) : S8192x2.Idx → BitVec 32) (ix2 r (1 : Fin 2)) := by
  have e : (StableHlo.after (hostOps0 (F := Ideal)) Wv (Proc.devRef .tc main_v3) : S8192.Idx → BitVec 32)
      = shapeCast S8192 (extractStridedSlice S8192x1 ![0, 1]
          (Wv (Proc.devRef .tc main_arg0) : S8192x2.Idx → BitVec 32) slices_S8192x2_S8192x1_0_1) shapeCasts_S8192x1_S8192 := by
    show StableHlo.after (hostOps0 (F := Ideal)) Wv (Proc.devRef .tc main_v3) = _
    after_results; rfl
  rw [e, shapeCast_apply _ _ (ix1 r) (ix2 r (0 : Fin 1))
    (by rw [Shape.rowMajor_val_two, Shape.rowMajor_val_one]; show r.val * 1 + 0 = r.val; omega)]
  exact slice2_axis1_apply 1 _ _ r (0 : Fin 1) (1 : Fin 2) rfl

/-- The weights handed to the first region are each layer's matrix transposed. -/
theorem host0_wt (l : Fin 3) (k d : Fin 256) :
    (StableHlo.after (hostOps0 (F := Ideal)) Wv (Proc.devRef .tc main_v4) : S3x256x256.Idx → EReal) (ix3 l k d)
      = (Wv (Proc.devRef .tc main_arg3) : S3x256x256.Idx → EReal) (ix3 l d k) := by
  have e : (StableHlo.after (hostOps0 (F := Ideal)) Wv (Proc.devRef .tc main_v4) : S3x256x256.Idx → EReal)
      = transpose S3x256x256 [0, 2, 1] (Wv (Proc.devRef .tc main_arg3) : S3x256x256.Idx → EReal)
          transposes_S3x256x256_S3x256x256_0_2_1 := by
    show StableHlo.after (hostOps0 (F := Ideal)) Wv (Proc.devRef .tc main_v4) = _
    after_results
  rw [e]
  exact transpose_ix3_021_apply _ _ l k d

/-! ## A filling take of the feature table by an index column

Both takes of the program are the same chain of operations over the table and one index column: a word below zero is
moved up by 8192, the result laid out as a column of start indices, the row gathered at each (clamped into the table),
and the gathered row kept where the start index passes the two range tests, replaced by a NaN row where it does not. -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by `and` from 1 of an array of ones is 1 everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x _ fun n _ => hx n

/-- The index column with a negative index counted from the table's end: a word below zero is moved up by 8192. -/
def wrapCol (v : S8192.Idx → BitVec 32) : S8192.Idx → BitVec 32 :=
  select (cmpi .slt v (broadcastInDim S8192 ![] bcast_S_S8192 (constantI S_ 32 0#32)))
    (addi v (broadcastInDim S8192 ![] bcast_S_S8192 (constantI S_ 32 8192#32))) v

theorem wrapCol_apply (v : S8192.Idx → BitVec 32) (j : S8192.Idx) : wrapCol v j = Cert.Spec.wrapW (v j) := rfl

/-- The wrapped indices as the gather's column of start indices. -/
def idxCol (v : S8192.Idx → BitVec 32) : S8192x1.Idx → BitVec 32 :=
  broadcastInDim S8192x1 ![0] bcast_S8192_S8192x1_0 (wrapCol v)

/-- The take's mask: per row, both range tests of the start index. -/
def maskCol (v : S8192.Idx → BitVec 32) : S8192.Idx → BitVec 1 :=
  Host.reduce IntOp.andi
    (andi (cmpi .sge (idxCol v) (broadcastInDim S8192x1 ![] bcast_S_S8192x1 (constantI S_ 32 0#32)))
      (cmpi .sle (idxCol v) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The take: the gathered rows where the mask is set, NaN rows elsewhere. -/
def takeOf (H : S8192x256.Idx → EReal) (v : S8192.Idx → BitVec 32) : S8192x256.Idx → EReal :=
  select (broadcastInDim S8192x256 ![0] bcast_S8192_S8192x256_0 (maskCol v))
    (Host.gather gather_S8192x256_S8192x1_S8192x256_1_0_n_n_0_1_1256 H (idxCol v))
    (broadcastInDim S8192x256 ![] bcast_S_S8192x256 (constant (F := Ideal) S_ .f32 0x7FC00000#32))

/-- Where every index word is in range, the take reads the table at the row each word names. -/
theorem takeOf_apply (H : S8192x256.Idx → EReal) (v : S8192.Idx → BitVec 32) (e : Fin 8192 → BitVec 32)
    (hcol : ∀ r, v (ix1 r) = e r) (hin : ∀ r, Cert.Spec.InRange (e r)) (r : Fin 8192) (d : Fin 256) :
    takeOf H v (ix2 r d) = H (ix2 (Cert.Spec.rowOf (e r)) d) := by
  have hidx : ∀ p : Fin 8192, idxCol v (ix2 p (0 : Fin 1)) = Cert.Spec.wrapW (e p) := fun p => by
    unfold idxCol
    rw [broadcastInDim_apply _ _ _ _ (ix1 p) (fun a => match a with | ⟨0, _⟩ => rfl), wrapCol_apply, hcol]
  have hmask : ∀ p : Fin 8192, maskCol v (ix1 p) = 1#1 := fun p => by
    unfold maskCol
    refine reduce_andi_of_all _ _ _ _ _ (fun i => ?_) rfl
    have hi : i = ix2 (⟨(i 0).val, (i 0).isLt⟩ : Fin 8192) (0 : Fin 1) := by
      funext a
      match a with
      | ⟨0, _⟩ => rfl
      | ⟨1, _⟩ => exact Fin.ext (Nat.lt_one_iff.mp (i 1).isLt)
    rw [hi]
    generalize (⟨(i 0).val, (i 0).isLt⟩ : Fin 8192) = q
    show IntOp.andi (IntOp.cmpi .sge (idxCol v (ix2 q (0 : Fin 1))) 0#32)
      (IntOp.cmpi .sle (idxCol v (ix2 q (0 : Fin 1))) 8191#32) = 1#1
    rw [hidx]
    exact IntOp.andi_eq_one.2 (hin q)
  unfold takeOf
  rw [select_apply, broadcastInDim_apply _ _ _ _ (ix1 r) (fun a => match a with | ⟨0, _⟩ => rfl), hmask, select_one]
  show Host.gather (GatherRows.rowDims 8192 256 8192 gather_S8192x256_S8192x1_S8192x256_1_0_n_n_0_1_1256_wf) H (idxCol v) (ix2 r d) = _
  rw [GatherRows.gather_rows_apply (by decide) _ H (idxCol v) r d]
  refine congrArg (fun k => H (ix2 k d)) (Fin.ext ?_)
  show min (idxCol v (ix2 r (0 : Fin 1))).toInt.toNat (8192 - 1) = min (Cert.Spec.wrapW (e r)).toInt.toNat 8191
  rw [hidx]

open Idealize.ShloMosaic.StableHlo in
/-- The first take's operations compose to the take of the feature table by the first index column. -/
theorem hostOps1_v6 : (StableHlo.after (hostOps1 (F := Ideal)) Wv (Proc.devRef .tc main_v6) : S8192x256.Idx → EReal)
    = takeOf (Wv (Proc.devRef .tc main_v5)) (Wv (Proc.devRef .tc main_v1)) := by
  show StableHlo.after (hostOps1 (F := Ideal)) Wv (Proc.devRef .tc main_v6) = _
  after_results_simp
  rfl

open Idealize.ShloMosaic.StableHlo in
/-- The second take's operations compose to the take of the feature table by the second index column. -/
theorem hostOps1_1_v7 : (StableHlo.after (hostOps1_1 (F := Ideal)) Wv (Proc.devRef .tc main_v7) : S8192x256.Idx → EReal)
    = takeOf (Wv (Proc.devRef .tc main_v5)) (Wv (Proc.devRef .tc main_v3)) := by
  show StableHlo.after (hostOps1_1 (F := Ideal)) Wv (Proc.devRef .tc main_v7) = _
  after_results_simp
  rfl

/-- The first gathered table: row `r` is the feature table's row named by the first index column's word `r`. -/
theorem take_src (e : Fin 8192 → BitVec 32)
    (hcol : ∀ r, (Wv (Proc.devRef .tc main_v1) : S8192.Idx → BitVec 32) (ix1 r) = e r)
    (hin : ∀ r, Cert.Spec.InRange (e r)) (r : Fin 8192) (d : Fin 256) :
    (StableHlo.after (hostOps1 (F := Ideal)) Wv (Proc.devRef .tc main_v6) : S8192x256.Idx → EReal) (ix2 r d)
      = (Wv (Proc.devRef .tc main_v5) : S8192x256.Idx → EReal) (ix2 (Cert.Spec.rowOf (e r)) d) := by
  rw [hostOps1_v6]
  exact takeOf_apply _ _ e hcol hin r d

/-- The second gathered table: row `r` is the feature table's row named by the second index column's word `r`. -/
theorem take_dst (e : Fin 8192 → BitVec 32)
    (hcol : ∀ r, (Wv (Proc.devRef .tc main_v3) : S8192.Idx → BitVec 32) (ix1 r) = e r)
    (hin : ∀ r, Cert.Spec.InRange (e r)) (r : Fin 8192) (d : Fin 256) :
    (StableHlo.after (hostOps1_1 (F := Ideal)) Wv (Proc.devRef .tc main_v7) : S8192x256.Idx → EReal) (ix2 r d)
      = (Wv (Proc.devRef .tc main_v5) : S8192x256.Idx → EReal) (ix2 (Cert.Spec.rowOf (e r)) d) := by
  rw [hostOps1_1_v7]
  exact takeOf_apply _ _ e hcol hin r d

/-! ## The precondition's bound on the index words -/

/-- A word between -8192 and 8191, read signed, has its wrapped word in `[0, 8191]`. -/
theorem inRange_of_bounds (e : BitVec 32) (h1 : -8192 ≤ e.toInt) (h2 : e.toInt < 8192) : Cert.Spec.InRange e := by
  have hz : (0#32 : BitVec 32).toInt = 0 := by decide
  have hk : (8192#32 : BitVec 32).toInt = 8192 := by decide
  have hm : (8191#32 : BitVec 32).toInt = 8191 := by decide
  unfold Cert.Spec.InRange Cert.Spec.wrapW
  by_cases hneg : e.toInt < 0
  · -- a word below zero is moved up by 8192
    have hc : IntOp.cmpi .slt e 0#32 = 1#1 := IntOp.cmpi_slt.2 (by rw [hz]; exact hneg)
    have hs : (IntOp.addi e 8192#32).toInt = e.toInt + 8192 := by
      show (e + 8192#32).toInt = _
      rw [WordArith.toInt_add_of_bounds e 8192#32 (by rw [hk]; omega) (by rw [hk]; omega), hk]
    rw [hc, select_one]
    exact ⟨IntOp.cmpi_sge.2 (by rw [hz, hs]; omega), IntOp.cmpi_sle.2 (by rw [hm, hs]; omega)⟩
  · have hc : IntOp.cmpi .slt e 0#32 = 0#1 := eq_zero_of_ne_one fun h => hneg (by have := IntOp.cmpi_slt.1 h; rwa [hz] at this)
    rw [hc, select_zero]
    exact ⟨IntOp.cmpi_sge.2 (by rw [hz]; omega), IntOp.cmpi_sle.2 (by rw [hm]; omega)⟩

/-- Under the precondition every word of the edge array has its wrapped word in range. -/
theorem inRange_of_pre [Cert.Pre_finite_inputs.Facts] (m : (ℓ : Loc nD τ sig) → Buf (Elt Ideal) ℓ)
    (h : Cert.Pre_KernelIdeal m) (c : Dev nD) (r : Fin 8192) (j : Fin 2) :
    Cert.Spec.InRange ((m ((c.tc : Thread nD τ).loc main_arg0) : S8192x2.Idx → BitVec 32) (ix2 r j)) := by
  haveI : Subsingleton Cert.Pre_finite_inputs.S_.Idx := ⟨fun a b => funext fun d => d.elim0⟩
  -- the precondition at its one index is a conjunction; its last conjunct is the test over the whole edge array
  have h1 := congrFun (h c) ix0
  dsimp only [Cert.Pre_finite_inputs.fn, Cert.Pre_finite_inputs.fn_part1] at h1
  have h2 := (IntOp.andi_eq_one.1 h1).2
  have h3 := Host.reduce_andi_all _ _ _ _ _ h2 (ix2 r j)
  obtain ⟨ha, hb⟩ := IntOp.andi_eq_one.1 h3
  have ha' : IntOp.cmpi .sge ((m ((c.tc : Thread nD τ).loc main_arg0) : S8192x2.Idx → BitVec 32) (ix2 r j)) 4294959104#32 = 1#1 := ha
  have hb' : IntOp.cmpi .slt ((m ((c.tc : Thread nD τ).loc main_arg0) : S8192x2.Idx → BitVec 32) (ix2 r j)) 8192#32 = 1#1 := hb
  have hlo : (4294959104#32 : BitVec 32).toInt = -8192 := by decide
  have hhi : (8192#32 : BitVec 32).toInt = 8192 := by decide
  exact inRange_of_bounds _ (by have := IntOp.cmpi_sge.1 ha'; rwa [hlo] at this) (by have := IntOp.cmpi_slt.1 hb'; rwa [hhi] at this)

end Cert.KernelIdeal.Val

end
-- ==== Proof.KernelValue.lean ====
/-
  The idealized kernel's result array is the specification's function of the argument arrays, wherever every index word
  lies in [-8192, 8192): the final reshape reads the second region's blocks, each entry the clipped absolute cosine of two
  gathered rows; a gathered row is the first region's row at the clamped, wrapped index, the take's mask being all ones
  there; and the first region's row is the node's features.
-/
import proofs.«406657_j56633438765545_2_alg».proof.Proof.Run
import proofs.«406657_j56633438765545_2_alg».proof.Proof.FrameClaim
import proofs.«406657_j56633438765545_2_alg».proof.Proof.Spec
import proofs.«406657_j56633438765545_2_alg».proof.Proof.R0Value
import proofs.«406657_j56633438765545_2_alg».proof.Proof.R1Value
import proofs.«406657_j56633438765545_2_alg».proof.Proof.TakeValue
import proofs.«406657_j56633438765545_2_alg».proof.Defs

set_option maxRecDepth 16384

noncomputable section

namespace Cert.KernelIdeal.Val

open Cert.KernelIdeal Cert.KernelIdeal.Gen Cert.KernelIdeal.Frm Cert.KernelIdeal.ValB Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt Ideal) ℓ)

/-- A node's features, from the launch memory's arrays. -/
abbrev featRow (c : Dev nD) (i : Fin 8192) (d : Fin 256) : EReal :=
  Cert.Spec.feat (m ((c.tc : Thread nD τ).loc main_arg1)) (m ((c.tc : Thread nD τ).loc main_arg2)) (m ((c.tc : Thread nD τ).loc main_arg3)) (m ((c.tc : Thread nD τ).loc main_arg4)) i d

/-- The first region's result array holds every node's features. -/
theorem table_eq (c : Dev nD) (i : Fin 8192) (d : Fin 256) :
    (W2 (F := Ideal) m c main_v5 : S8192x256.Idx → EReal) (ix2 i d) = featRow m c i d := by
  have hW : ∀ (l : Fin 3) (k d : Fin 256), arrWT (V1 m) c (ix3 l k d) = (m ((c.tc : Thread nD τ).loc main_arg3) : S3x256x256.Idx → EReal) (ix3 l d k) :=
    fun l k d => host0_wt (W0 m c) l k d
  have h := region0_value (V1 m) c _ hW i d
  have hA : arrA (V1 m) c = m ((c.tc : Thread nD τ).loc main_arg1) := StableHlo.after_of_writes_sub hostOps0 _ hostOps0_writes (by decide)
  have hE : arrE (V1 m) c = m ((c.tc : Thread nD τ).loc main_arg2) := StableHlo.after_of_writes_sub hostOps0 _ hostOps0_writes (by decide)
  have hB : arrB (V1 m) c = m ((c.tc : Thread nD τ).loc main_arg4) := StableHlo.after_of_writes_sub hostOps0 _ hostOps0_writes (by decide)
  rw [hA, hE, hB] at h
  exact (congrFun (W2_arr m c 4) (ix2 i d)).trans h

variable [Cert.Pre_finite_inputs.Facts]

/-- Row `r` of the first gathered table is the features of the node edge `r` leaves from. -/
theorem src_rows (hpre : Cert.Pre_KernelIdeal m) (c : Dev nD) (r : Fin 8192) (d : Fin 256) :
    arrS (V4 m) c (ix2 r d)
      = featRow m c (Cert.Spec.rowOf ((m ((c.tc : Thread nD τ).loc main_arg0) : S8192x2.Idx → BitVec 32) (ix2 r (0 : Fin 2)))) d := by
  have h43 : W4 (F := Ideal) m c main_v6 = W3 m c main_v6 :=
    StableHlo.after_of_writes_sub hostOps1_1 _ hostOps1_1_writes (by decide)
  have hcol : ∀ r : Fin 8192, (W2 (F := Ideal) m c (Proc.devRef .tc main_v1) : S8192.Idx → BitVec 32) (ix1 r)
      = (m ((c.tc : Thread nD τ).loc main_arg0) : S8192x2.Idx → BitVec 32) (ix2 r (0 : Fin 2)) := fun r => by
    rw [show W2 (F := Ideal) m c (Proc.devRef .tc main_v1) = W1 m c (Proc.devRef .tc main_v1) from W2_of_ne m c main_v1 (by decide)]
    exact host0_src (W0 m c) r
  have h := take_src (W2 m c) _ hcol (fun r => inRange_of_pre m hpre c r 0) r d
  show (W4 (F := Ideal) m c main_v6 : S8192x256.Idx → EReal) (ix2 r d) = _
  rw [h43]
  exact h.trans (table_eq m c _ d)

/-- Row `r` of the second gathered table is the features of the node edge `r` arrives at. -/
theorem dst_rows (hpre : Cert.Pre_KernelIdeal m) (c : Dev nD) (r : Fin 8192) (d : Fin 256) :
    arrD (V4 m) c (ix2 r d)
      = featRow m c (Cert.Spec.rowOf ((m ((c.tc : Thread nD τ).loc main_arg0) : S8192x2.Idx → BitVec 32) (ix2 r (1 : Fin 2)))) d := by
  have h32 : W3 (F := Ideal) m c main_v5 = W2 m c main_v5 :=
    StableHlo.after_of_writes_sub hostOps1 _ hostOps1_writes (by decide)
  have hcol : ∀ r : Fin 8192, (W3 (F := Ideal) m c (Proc.devRef .tc main_v3) : S8192.Idx → BitVec 32) (ix1 r)
      = (m ((c.tc : Thread nD τ).loc main_arg0) : S8192x2.Idx → BitVec 32) (ix2 r (1 : Fin 2)) := fun r => by
    rw [show W3 (F := Ideal) m c (Proc.devRef .tc main_v3) = W2 m c (Proc.devRef .tc main_v3) from
        StableHlo.after_of_writes_sub hostOps1 _ hostOps1_writes (by decide),
      show W2 (F := Ideal) m c (Proc.devRef .tc main_v3) = W1 m c (Proc.devRef .tc main_v3) from W2_of_ne m c main_v3 (by decide)]
    exact host0_dst (W0 m c) r
  have h := take_dst (W3 m c) _ hcol (fun r => inRange_of_pre m hpre c r 1) r d
  show (W4 (F := Ideal) m c main_v7 : S8192x256.Idx → EReal) (ix2 r d) = _
  refine h.trans ?_
  rw [h32]
  exact table_eq m c _ d

theorem kernel_value (hpre : Cert.Pre_KernelIdeal m) (c : Dev nD) :
    (W6 (F := Ideal) m c main_v9 : S8192.Idx → EReal)
      = Cert.Spec.G (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0)) := by
  funext j
  obtain ⟨r, rfl⟩ : ∃ r : Fin 8192, j = ix1 r := ⟨j 0, eq_ix1 j⟩
  rw [Cert.Spec.G_ix1]
  have hr : ∀ h, (⟨2048 * (r.val / 2048) + r.val % 2048, h⟩ : Fin 8192) = r := fun h => Fin.ext (Nat.div_add_mod r.val 2048)
  have h1 := final_reshape (W5 m c) r
  have h2 := region1_value (V4 m) c (⟨r.val / 2048, by omega⟩ : Fin 4) (⟨r.val % 2048, Nat.mod_lt _ (by decide)⟩ : Fin 2048)
  dsimp only at h2
  simp only [hr, src_rows m hpre c, dst_rows m hpre c] at h2
  refine h1.trans ?_
  rw [show W5 (F := Ideal) m c (Proc.devRef .tc main_v8) = (dat1 (V4 m) c).arrAt 2 cfg1.N from W5_arr m c 2]
  exact h2

end

end Cert.KernelIdeal.Val

end
-- ==== Proof.RefValue.lean ====
/-
  The reference's result array, read entry by entry, is the specification's function of the argument arrays.

  The road, stage by stage. The two start-index columns are the wrapped index words of the two columns of the edge
  array. A row take read at (r, k) is the adjacency table at the clamped wrapped row and column k, so the first product,
  read at (r, d), is row (rowOf e) of A · emb. A transposed slice of the stacked weights read at (k, d) is W[l, d, k], and a
  twice-broadcast slice of the stacked biases read at (r, d) is b[l, d], so each product-plus-bias stage is one affine layer
  of the row before it. The last stages are the sum of products of the two feature rows, its absolute value, the two
  root sums of squares, the quotient, and the maximum with zero.
-/
import proofs.«406657_j56633438765545_2_alg».proof.Proof.Gen.ReferenceIdeal.Run
import proofs.«406657_j56633438765545_2_alg».proof.Proof.Gen.ReferenceIdeal.Read
import proofs.«406657_j56633438765545_2_alg».proof.Proof.Spec
import proofs.«406657_j56633438765545_2_alg».proof.Proof.LibGatherRows

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 : (⟨S8192x2, .i32⟩ : BufTy).Contents (Elt Ideal)) (x1 : (⟨S8192x8192, .f32⟩ : BufTy).Contents (Elt Ideal))
  (x2 : (⟨S8192x256, .f32⟩ : BufTy).Contents (Elt Ideal)) (x3 : (⟨S3x256x256, .f32⟩ : BufTy).Contents (Elt Ideal))
  (x4 : (⟨S3x256, .f32⟩ : BufTy).Contents (Elt Ideal))

/-! ## The two start-index columns -/

/-- The source column at row `r`: the wrapped word of `edges[r, 0]`. -/
theorem srcCol_apply (r : Fin 8192) :
    val_main_v9 (F := Ideal) x0 (ix2 r ⟨0, Nat.one_pos⟩) = Cert.Spec.wrapW (x0 (ix2 r (0 : Fin 2))) := by
  rw [val_main_v9_apply, val_main_v8_apply, val_main_v5_apply, val_main_v7_apply, val_main_v1_apply, val_main_v0_apply,
    val_main_v4_apply, val_main_c_apply, val_main_v6_apply, val_main_c_0_apply]
  have e : idx_main_v0 (idx_main_v1 (idx_main_v9 (ix2 r (⟨0, Nat.one_pos⟩ : Fin 1)))) = ix2 r (0 : Fin 2) :=
    funext fun a => Fin.ext (by
      match a with
      | ⟨0, _⟩ => exact Nat.div_one r.val
      | ⟨1, _⟩ => rfl)
  rw [e]
  rfl

/-- The destination column at row `r`: the wrapped word of `edges[r, 1]`. -/
theorem dstCol_apply (r : Fin 8192) :
    val_main_v16 (F := Ideal) x0 (ix2 r ⟨0, Nat.one_pos⟩) = Cert.Spec.wrapW (x0 (ix2 r (1 : Fin 2))) := by
  rw [val_main_v16_apply, val_main_v15_apply, val_main_v12_apply, val_main_v14_apply, val_main_v3_apply, val_main_v2_apply,
    val_main_v11_apply, val_main_c_1_apply, val_main_v13_apply, val_main_c_2_apply]
  have e : idx_main_v2 (idx_main_v3 (idx_main_v16 (ix2 r (⟨0, Nat.one_pos⟩ : Fin 1)))) = ix2 r (1 : Fin 2) :=
    funext fun a => Fin.ext (by
      match a with
      | ⟨0, _⟩ => exact Nat.div_one r.val
      | ⟨1, _⟩ => rfl)
  rw [e]
  rfl

/-! ## The two row takes -/

/-- The source rows: entry `(r, k)` is the table at the row `edges[r, 0]` names, column `k`. -/
theorem srcRows_apply (r k : Fin 8192) :
    val_main_v10 (F := Ideal) x0 x1 (ix2 r k) = x1 (ix2 (Cert.Spec.rowOf (x0 (ix2 r (0 : Fin 2)))) k) := by
  unfold val_main_v10
  show Host.gather (GatherRows.rowDims 8192 8192 8192 gather_S8192x8192_S8192x1_S8192x8192_1_0_n_n_0_1_18192_wf) x1
    (val_main_v9 (F := Ideal) x0) (ix2 r k) = _
  refine (GatherRows.gather_rows_apply (by decide) _ x1 (val_main_v9 (F := Ideal) x0) r k).trans ?_
  refine congrArg (fun i => x1 (ix2 i k)) (Fin.ext ?_)
  show min (val_main_v9 (F := Ideal) x0 (ix2 r ⟨0, Nat.one_pos⟩)).toInt.toNat (8192 - 1) = _
  rw [srcCol_apply]
  rfl

/-- The destination rows: entry `(r, k)` is the table at the row `edges[r, 1]` names, column `k`. -/
theorem dstRows_apply (r k : Fin 8192) :
    val_main_v17 (F := Ideal) x0 x1 (ix2 r k) = x1 (ix2 (Cert.Spec.rowOf (x0 (ix2 r (1 : Fin 2)))) k) := by
  unfold val_main_v17
  show Host.gather (GatherRows.rowDims 8192 8192 8192 gather_S8192x8192_S8192x1_S8192x8192_1_0_n_n_0_1_18192_wf) x1
    (val_main_v16 (F := Ideal) x0) (ix2 r k) = _
  refine (GatherRows.gather_rows_apply (by decide) _ x1 (val_main_v16 (F := Ideal) x0) r k).trans ?_
  refine congrArg (fun i => x1 (ix2 i k)) (Fin.ext ?_)
  show min (val_main_v16 (F := Ideal) x0 (ix2 r ⟨0, Nat.one_pos⟩)).toInt.toNat (8192 - 1) = _
  rw [dstCol_apply]
  rfl

/-! ## The aggregated rows -/

/-- The source side's first product at `(r, d)`: row `rowOf edges[r, 0]` of `A · emb`. -/
theorem srcAgg_apply (r : Fin 8192) (d : Fin 256) :
    val_main_v18 (F := Ideal) x0 x1 x2 (ix2 r d) = Cert.Spec.agg x1 x2 (Cert.Spec.rowOf (x0 (ix2 r (0 : Fin 2)))) d := by
  rw [val_main_v18_apply]
  unfold Cert.Spec.agg
  refine Finset.sum_congr rfl fun k _ => ?_
  have el : lidx_main_v18 (ix2 r d) k = ix2 r k := funext fun a => Fin.ext (by
    match a with
    | ⟨0, _⟩ => rfl
    | ⟨1, _⟩ => rfl)
  have er : ridx_main_v18 (ix2 r d) k = ix2 k d := funext fun a => Fin.ext (by
    match a with
    | ⟨0, _⟩ => rfl
    | ⟨1, _⟩ => rfl)
  rw [el, er, srcRows_apply]

/-- The destination side's first product at `(r, d)`: row `rowOf edges[r, 1]` of `A · emb`. -/
theorem dstAgg_apply (r : Fin 8192) (d : Fin 256) :
    val_main_v46 (F := Ideal) x0 x1 x2 (ix2 r d) = Cert.Spec.agg x1 x2 (Cert.Spec.rowOf (x0 (ix2 r (1 : Fin 2)))) d := by
  rw [val_main_v46_apply]
  unfold Cert.Spec.agg
  refine Finset.sum_congr rfl fun k _ => ?_
  have el : lidx_main_v46 (ix2 r d) k = ix2 r k := funext fun a => Fin.ext (by
    match a with
    | ⟨0, _⟩ => rfl
    | ⟨1, _⟩ => rfl)
  have er : ridx_main_v46 (ix2 r d) k = ix2 k d := funext fun a => Fin.ext (by
    match a with
    | ⟨0, _⟩ => rfl
    | ⟨1, _⟩ => rfl)
  rw [el, er, dstRows_apply]

/-! ## The weights and the biases as the stages read them

A layer's weight operand is a one-layer slice of the stacked weights with its unit axis dropped, transposed: entry
`(k, d)` is `W[l, d, k]`. Its bias operand is a one-layer slice of the stacked biases with its unit axis dropped and put
back, repeated down the rows: entry `(r, d)` is `b[l, d]`. -/

/-- The source side's first weight operand at `(k, d)`: `W[0, d, k]`. -/
theorem srcW0_apply (k d : Fin 256) : val_main_v21 (F := Ideal) x3 (ix2 k d) = x3 (ix3 (0 : Fin 3) d k) := by
  rw [val_main_v21_apply, val_main_v20_apply, val_main_v19_apply]
  refine congrArg x3 (funext fun a => Fin.ext ?_)
  have hk := k.isLt
  have hd := d.isLt
  match a with
  | ⟨0, _⟩ => rfl
  | ⟨1, _⟩ => show (d.val * 256 + k.val) / 256 % 256 = d.val; omega
  | ⟨2, _⟩ => show (d.val * 256 + k.val) % 256 = k.val; omega

/-- The source side's second weight operand at `(k, d)`: `W[1, d, k]`. -/
theorem srcW1_apply (k d : Fin 256) : val_main_v30 (F := Ideal) x3 (ix2 k d) = x3 (ix3 (1 : Fin 3) d k) := by
  rw [val_main_v30_apply, val_main_v29_apply, val_main_v28_apply]
  refine congrArg x3 (funext fun a => Fin.ext ?_)
  have hk := k.isLt
  have hd := d.isLt
  match a with
  | ⟨0, _⟩ => rfl
  | ⟨1, _⟩ => show (d.val * 256 + k.val) / 256 % 256 = d.val; omega
  | ⟨2, _⟩ => show (d.val * 256 + k.val) % 256 = k.val; omega

/-- The source side's third weight operand at `(k, d)`: `W[2, d, k]`. -/
theorem srcW2_apply (k d : Fin 256) : val_main_v39 (F := Ideal) x3 (ix2 k d) = x3 (ix3 (2 : Fin 3) d k) := by
  rw [val_main_v39_apply, val_main_v38_apply, val_main_v37_apply]
  refine congrArg x3 (funext fun a => Fin.ext ?_)
  have hk := k.isLt
  have hd := d.isLt
  match a with
  | ⟨0, _⟩ => rfl
  | ⟨1, _⟩ => show (d.val * 256 + k.val) / 256 % 256 = d.val; omega
  | ⟨2, _⟩ => show (d.val * 256 + k.val) % 256 = k.val; omega

/-- The destination side's first weight operand at `(k, d)`: `W[0, d, k]`. -/
theorem dstW0_apply (k d : Fin 256) : val_main_v49 (F := Ideal) x3 (ix2 k d) = x3 (ix3 (0 : Fin 3) d k) := by
  rw [val_main_v49_apply, val_main_v48_apply, val_main_v47_apply]
  refine congrArg x3 (funext fun a => Fin.ext ?_)
  have hk := k.isLt
  have hd := d.isLt
  match a with
  | ⟨0, _⟩ => rfl
  | ⟨1, _⟩ => show (d.val * 256 + k.val) / 256 % 256 = d.val; omega
  | ⟨2, _⟩ => show (d.val * 256 + k.val) % 256 = k.val; omega

/-- The destination side's second weight operand at `(k, d)`: `W[1, d, k]`. -/
theorem dstW1_apply (k d : Fin 256) : val_main_v58 (F := Ideal) x3 (ix2 k d) = x3 (ix3 (1 : Fin 3) d k) := by
  rw [val_main_v58_apply, val_main_v57_apply, val_main_v56_apply]
  refine congrArg x3 (funext fun a => Fin.ext ?_)
  have hk := k.isLt
  have hd := d.isLt
  match a with
  | ⟨0, _⟩ => rfl
  | ⟨1, _⟩ => show (d.val * 256 + k.val) / 256 % 256 = d.val; omega
  | ⟨2, _⟩ => show (d.val * 256 + k.val) % 256 = k.val; omega

/-- The destination side's third weight operand at `(k, d)`: `W[2, d, k]`. -/
theorem dstW2_apply (k d : Fin 256) : val_main_v67 (F := Ideal) x3 (ix2 k d) = x3 (ix3 (2 : Fin 3) d k) := by
  rw [val_main_v67_apply, val_main_v66_apply, val_main_v65_apply]
  refine congrArg x3 (funext fun a => Fin.ext ?_)
  have hk := k.isLt
  have hd := d.isLt
  match a with
  | ⟨0, _⟩ => rfl
  | ⟨1, _⟩ => show (d.val * 256 + k.val) / 256 % 256 = d.val; omega
  | ⟨2, _⟩ => show (d.val * 256 + k.val) % 256 = k.val; omega

/-- The source side's first bias operand at `(r, d)`: `b[0, d]`. -/
theorem srcB0_apply (r : Fin 8192) (d : Fin 256) : val_main_v26 (F := Ideal) x4 (ix2 r d) = x4 (ix2 (0 : Fin 3) d) := by
  rw [val_main_v26_apply, val_main_v25_apply, val_main_v24_apply, val_main_v23_apply]
  refine congrArg x4 (funext fun a => Fin.ext ?_)
  have hd := d.isLt
  match a with
  | ⟨0, _⟩ => rfl
  | ⟨1, _⟩ => show d.val % 256 = d.val; omega

/-- The source side's second bias operand at `(r, d)`: `b[1, d]`. -/
theorem srcB1_apply (r : Fin 8192) (d : Fin 256) : val_main_v35 (F := Ideal) x4 (ix2 r d) = x4 (ix2 (1 : Fin 3) d) := by
  rw [val_main_v35_apply, val_main_v34_apply, val_main_v33_apply, val_main_v32_apply]
  refine congrArg x4 (funext fun a => Fin.ext ?_)
  have hd := d.isLt
  match a with
  | ⟨0, _⟩ => rfl
  | ⟨1, _⟩ => show d.val % 256 = d.val; omega

/-- The source side's third bias operand at `(r, d)`: `b[2, d]`. -/
theorem srcB2_apply (r : Fin 8192) (d : Fin 256) : val_main_v44 (F := Ideal) x4 (ix2 r d) = x4 (ix2 (2 : Fin 3) d) := by
  rw [val_main_v44_apply, val_main_v43_apply, val_main_v42_apply, val_main_v41_apply]
  refine congrArg x4 (funext fun a => Fin.ext ?_)
  have hd := d.isLt
  match a with
  | ⟨0, _⟩ => rfl
  | ⟨1, _⟩ => show d.val % 256 = d.val; omega

/-- The destination side's first bias operand at `(r, d)`: `b[0, d]`. -/
theorem dstB0_apply (r : Fin 8192) (d : Fin 256) : val_main_v54 (F := Ideal) x4 (ix2 r d) = x4 (ix2 (0 : Fin 3) d) := by
  rw [val_main_v54_apply, val_main_v53_apply, val_main_v52_apply, val_main_v51_apply]
  refine congrArg x4 (funext fun a => Fin.ext ?_)
  have hd := d.isLt
  match a with
  | ⟨0, _⟩ => rfl
  | ⟨1, _⟩ => show d.val % 256 = d.val; omega

/-- The destination side's second bias operand at `(r, d)`: `b[1, d]`. -/
theorem dstB1_apply (r : Fin 8192) (d : Fin 256) : val_main_v63 (F := Ideal) x4 (ix2 r d) = x4 (ix2 (1 : Fin 3) d) := by
  rw [val_main_v63_apply, val_main_v62_apply, val_main_v61_apply, val_main_v60_apply]
  refine congrArg x4 (funext fun a => Fin.ext ?_)
  have hd := d.isLt
  match a with
  | ⟨0, _⟩ => rfl
  | ⟨1, _⟩ => show d.val % 256 = d.val; omega

/-- The destination side's third bias operand at `(r, d)`: `b[2, d]`. -/
theorem dstB2_apply (r : Fin 8192) (d : Fin 256) : val_main_v72 (F := Ideal) x4 (ix2 r d) = x4 (ix2 (2 : Fin 3) d) := by
  rw [val_main_v72_apply, val_main_v71_apply, val_main_v70_apply, val_main_v69_apply]
  refine congrArg x4 (funext fun a => Fin.ext ?_)
  have hd := d.isLt
  match a with
  | ⟨0, _⟩ => rfl
  | ⟨1, _⟩ => show d.val % 256 = d.val; omega

/-! ## The layers

Each product-plus-bias stage at `(r, d)` is one affine layer of the stage before it, read along row `r`. -/

/-- The source side's first layer. -/
theorem srcLayer0_apply (r : Fin 8192) (d : Fin 256) :
    val_main_v27 (F := Ideal) x0 x1 x2 x3 x4 (ix2 r d)
      = Cert.Spec.layer x3 x4 0 (fun k => val_main_v18 (F := Ideal) x0 x1 x2 (ix2 r k)) d := by
  rw [val_main_v27_apply, Ideal.addf_def, val_main_v22_apply, srcB0_apply]
  unfold Cert.Spec.layer
  refine congrArg (· + x4 (ix2 (0 : Fin 3) d)) (Finset.sum_congr rfl fun k _ => ?_)
  have el : lidx_main_v22 (ix2 r d) k = ix2 r k := funext fun a => Fin.ext (by
    match a with
    | ⟨0, _⟩ => rfl
    | ⟨1, _⟩ => rfl)
  have er : ridx_main_v22 (ix2 r d) k = ix2 k d := funext fun a => Fin.ext (by
    match a with
    | ⟨0, _⟩ => rfl
    | ⟨1, _⟩ => rfl)
  rw [el, er, srcW0_apply]

/-- The source side's second layer. -/
theorem srcLayer1_apply (r : Fin 8192) (d : Fin 256) :
    val_main_v36 (F := Ideal) x0 x1 x2 x3 x4 (ix2 r d)
      = Cert.Spec.layer x3 x4 1 (fun k => val_main_v27 (F := Ideal) x0 x1 x2 x3 x4 (ix2 r k)) d := by
  rw [val_main_v36_apply, Ideal.addf_def, val_main_v31_apply, srcB1_apply]
  unfold Cert.Spec.layer
  refine congrArg (· + x4 (ix2 (1 : Fin 3) d)) (Finset.sum_congr rfl fun k _ => ?_)
  have el : lidx_main_v31 (ix2 r d) k = ix2 r k := funext fun a => Fin.ext (by
    match a with
    | ⟨0, _⟩ => rfl
    | ⟨1, _⟩ => rfl)
  have er : ridx_main_v31 (ix2 r d) k = ix2 k d := funext fun a => Fin.ext (by
    match a with
    | ⟨0, _⟩ => rfl
    | ⟨1, _⟩ => rfl)
  rw [el, er, srcW1_apply]

/-- The source side's third layer. -/
theorem srcLayer2_apply (r : Fin 8192) (d : Fin 256) :
    val_main_v45 (F := Ideal) x0 x1 x2 x3 x4 (ix2 r d)
      = Cert.Spec.layer x3 x4 2 (fun k => val_main_v36 (F := Ideal) x0 x1 x2 x3 x4 (ix2 r k)) d := by
  rw [val_main_v45_apply, Ideal.addf_def, val_main_v40_apply, srcB2_apply]
  unfold Cert.Spec.layer
  refine congrArg (· + x4 (ix2 (2 : Fin 3) d)) (Finset.sum_congr rfl fun k _ => ?_)
  have el : lidx_main_v40 (ix2 r d) k = ix2 r k := funext fun a => Fin.ext (by
    match a with
    | ⟨0, _⟩ => rfl
    | ⟨1, _⟩ => rfl)
  have er : ridx_main_v40 (ix2 r d) k = ix2 k d := funext fun a => Fin.ext (by
    match a with
    | ⟨0, _⟩ => rfl
    | ⟨1, _⟩ => rfl)
  rw [el, er, srcW2_apply]

/-- The destination side's first layer. -/
theorem dstLayer0_apply (r : Fin 8192) (d : Fin 256) :
    val_main_v55 (F := Ideal) x0 x1 x2 x3 x4 (ix2 r d)
      = Cert.Spec.layer x3 x4 0 (fun k => val_main_v46 (F := Ideal) x0 x1 x2 (ix2 r k)) d := by
  rw [val_main_v55_apply, Ideal.addf_def, val_main_v50_apply, dstB0_apply]
  unfold Cert.Spec.layer
  refine congrArg (· + x4 (ix2 (0 : Fin 3) d)) (Finset.sum_congr rfl fun k _ => ?_)
  have el : lidx_main_v50 (ix2 r d) k = ix2 r k := funext fun a => Fin.ext (by
    match a with
    | ⟨0, _⟩ => rfl
    | ⟨1, _⟩ => rfl)
  have er : ridx_main_v50 (ix2 r d) k = ix2 k d := funext fun a => Fin.ext (by
    match a with
    | ⟨0, _⟩ => rfl
    | ⟨1, _⟩ => rfl)
  rw [el, er, dstW0_apply]

/-- The destination side's second layer. -/
theorem dstLayer1_apply (r : Fin 8192) (d : Fin 256) :
    val_main_v64 (F := Ideal) x0 x1 x2 x3 x4 (ix2 r d)
      = Cert.Spec.layer x3 x4 1 (fun k => val_main_v55 (F := Ideal) x0 x1 x2 x3 x4 (ix2 r k)) d := by
  rw [val_main_v64_apply, Ideal.addf_def, val_main_v59_apply, dstB1_apply]
  unfold Cert.Spec.layer
  refine congrArg (· + x4 (ix2 (1 : Fin 3) d)) (Finset.sum_congr rfl fun k _ => ?_)
  have el : lidx_main_v59 (ix2 r d) k = ix2 r k := funext fun a => Fin.ext (by
    match a with
    | ⟨0, _⟩ => rfl
    | ⟨1, _⟩ => rfl)
  have er : ridx_main_v59 (ix2 r d) k = ix2 k d := funext fun a => Fin.ext (by
    match a with
    | ⟨0, _⟩ => rfl
    | ⟨1, _⟩ => rfl)
  rw [el, er, dstW1_apply]

/-- The destination side's third layer. -/
theorem dstLayer2_apply (r : Fin 8192) (d : Fin 256) :
    val_main_v73 (F := Ideal) x0 x1 x2 x3 x4 (ix2 r d)
      = Cert.Spec.layer x3 x4 2 (fun k => val_main_v64 (F := Ideal) x0 x1 x2 x3 x4 (ix2 r k)) d := by
  rw [val_main_v73_apply, Ideal.addf_def, val_main_v68_apply, dstB2_apply]
  unfold Cert.Spec.layer
  refine congrArg (· + x4 (ix2 (2 : Fin 3) d)) (Finset.sum_congr rfl fun k _ => ?_)
  have el : lidx_main_v68 (ix2 r d) k = ix2 r k := funext fun a => Fin.ext (by
    match a with
    | ⟨0, _⟩ => rfl
    | ⟨1, _⟩ => rfl)
  have er : ridx_main_v68 (ix2 r d) k = ix2 k d := funext fun a => Fin.ext (by
    match a with
    | ⟨0, _⟩ => rfl
    | ⟨1, _⟩ => rfl)
  rw [el, er, dstW2_apply]

/-! ## The two feature rows -/

/-- Row `r` of the source side's last stage: the features of the node `edges[r, 0]` names. -/
theorem srcFeat_apply (r : Fin 8192) (d : Fin 256) :
    val_main_v45 (F := Ideal) x0 x1 x2 x3 x4 (ix2 r d)
      = Cert.Spec.feat x1 x2 x3 x4 (Cert.Spec.rowOf (x0 (ix2 r (0 : Fin 2)))) d := by
  rw [srcLayer2_apply]
  unfold Cert.Spec.feat
  refine congrArg (fun h => Cert.Spec.layer x3 x4 2 h d) (funext fun k => ?_)
  rw [srcLayer1_apply]
  refine congrArg (fun h => Cert.Spec.layer x3 x4 1 h k) (funext fun k' => ?_)
  rw [srcLayer0_apply]
  refine congrArg (fun h => Cert.Spec.layer x3 x4 0 h k') (funext fun k'' => ?_)
  exact srcAgg_apply x0 x1 x2 r k''

/-- Row `r` of the destination side's last stage: the features of the node `edges[r, 1]` names. -/
theorem dstFeat_apply (r : Fin 8192) (d : Fin 256) :
    val_main_v73 (F := Ideal) x0 x1 x2 x3 x4 (ix2 r d)
      = Cert.Spec.feat x1 x2 x3 x4 (Cert.Spec.rowOf (x0 (ix2 r (1 : Fin 2)))) d := by
  rw [dstLayer2_apply]
  unfold Cert.Spec.feat
  refine congrArg (fun h => Cert.Spec.layer x3 x4 2 h d) (funext fun k => ?_)
  rw [dstLayer1_apply]
  refine congrArg (fun h => Cert.Spec.layer x3 x4 1 h k) (funext fun k' => ?_)
  rw [dstLayer0_apply]
  refine congrArg (fun h => Cert.Spec.layer x3 x4 0 h k') (funext fun k'' => ?_)
  exact dstAgg_apply x0 x1 x2 r k''

/-! ## The three row sums -/

/-- The sum of products of the two feature rows of edge `r`. -/
theorem dotSum_apply (r : Fin 8192) :
    val_main_v75 (F := Ideal) x0 x1 x2 x3 x4 (ix1 r)
      = ∑ d : Fin 256, Cert.Spec.feat x1 x2 x3 x4 (Cert.Spec.rowOf (x0 (ix2 r (0 : Fin 2)))) d
          * Cert.Spec.feat x1 x2 x3 x4 (Cert.Spec.rowOf (x0 (ix2 r (1 : Fin 2)))) d := by
  rw [val_main_v75_apply, val_main_cst_apply, Ideal.ofBits_def, Ideal.ofBits_zero_f32, zero_add]
  refine Finset.sum_congr rfl fun d _ => ?_
  have e : idx_main_v75 (ix1 r) d = ix2 r d := funext fun a => Fin.ext (by
    match a with
    | ⟨0, _⟩ => rfl
    | ⟨1, _⟩ => rfl)
  rw [e, val_main_v74_apply, Ideal.mulf_def, srcFeat_apply, dstFeat_apply]

/-- The sum of squares of the source feature row of edge `r`. -/
theorem srcSq_apply (r : Fin 8192) :
    val_main_call0_v1 (F := Ideal) x0 x1 x2 x3 x4 (ix1 r)
      = ∑ d : Fin 256, Cert.Spec.feat x1 x2 x3 x4 (Cert.Spec.rowOf (x0 (ix2 r (0 : Fin 2)))) d
          * Cert.Spec.feat x1 x2 x3 x4 (Cert.Spec.rowOf (x0 (ix2 r (0 : Fin 2)))) d := by
  rw [val_main_call0_v1_apply, val_main_call0_cst_apply, Ideal.ofBits_def, Ideal.ofBits_zero_f32, zero_add]
  refine Finset.sum_congr rfl fun d _ => ?_
  have e : idx_main_call0_v1 (ix1 r) d = ix2 r d := funext fun a => Fin.ext (by
    match a with
    | ⟨0, _⟩ => rfl
    | ⟨1, _⟩ => rfl)
  rw [e, val_main_call0_v0_apply, Ideal.mulf_def, srcFeat_apply]

/-- The sum of squares of the destination feature row of edge `r`. -/
theorem dstSq_apply (r : Fin 8192) :
    val_main_call1_v1 (F := Ideal) x0 x1 x2 x3 x4 (ix1 r)
      = ∑ d : Fin 256, Cert.Spec.feat x1 x2 x3 x4 (Cert.Spec.rowOf (x0 (ix2 r (1 : Fin 2)))) d
          * Cert.Spec.feat x1 x2 x3 x4 (Cert.Spec.rowOf (x0 (ix2 r (1 : Fin 2)))) d := by
  rw [val_main_call1_v1_apply, val_main_call1_cst_apply, Ideal.ofBits_def, Ideal.ofBits_zero_f32, zero_add]
  refine Finset.sum_congr rfl fun d _ => ?_
  have e : idx_main_call1_v1 (ix1 r) d = ix2 r d := funext fun a => Fin.ext (by
    match a with
    | ⟨0, _⟩ => rfl
    | ⟨1, _⟩ => rfl)
  rw [e, val_main_call1_v0_apply, Ideal.mulf_def, dstFeat_apply]

/-! ## The result -/

/-- THE REFERENCE'S RESULT ARRAY IS THE SPECIFICATION'S: entry `r` is the clipped absolute cosine of the feature rows of
    the two nodes edge `r` names. -/
theorem ref_eq (x0 : (⟨S8192x2, .i32⟩ : BufTy).Contents (Elt Ideal)) (x1 : (⟨S8192x8192, .f32⟩ : BufTy).Contents (Elt Ideal))
    (x2 : (⟨S8192x256, .f32⟩ : BufTy).Contents (Elt Ideal)) (x3 : (⟨S3x256x256, .f32⟩ : BufTy).Contents (Elt Ideal))
    (x4 : (⟨S3x256, .f32⟩ : BufTy).Contents (Elt Ideal)) :
    Cert.ReferenceIdeal.Read.val_main_v81 (F := Ideal) x0 x1 x2 x3 x4 = Cert.Spec.G x1 x2 x3 x4 x0 := by
  funext j
  obtain ⟨r, rfl⟩ : ∃ r : Fin 8192, j = ix1 r := ⟨j 0, eq_ix1 j⟩
  rw [Cert.Spec.G_ix1, val_main_v81_apply, Ideal.maximumf_def, val_main_v80_apply, Ideal.hostDivf_def, val_main_v76_apply,
    val_main_v79_apply, Ideal.mulf_def, val_main_v77_apply, Ideal.hostUnary_sqrt_def, val_main_v78_apply,
    Ideal.hostUnary_sqrt_def, dotSum_apply, srcSq_apply, dstSq_apply, val_main_call2_v0_apply, val_main_call2_cst_apply,
    Ideal.ofBits_def, Ideal.ofBits_zero_f32]
  rfl

end Cert.ReferenceIdeal.RefValue

end
-- ==== Proof.lean ====
/-
  The certificate. The word-level kernel and its idealization are one program text read at two instances, so one frame
  proof, generic in the instance, serves both: the program is two pipelined kernel regions among four stretches of host
  operations, run item by item; every argument array ends as launched. The reference has no kernel: its frame is its run.
  Nothing was rewritten by the idealization, so there is nothing to preserve. For the equivalence, under the precondition
  (every float input finite, every index word in [-8192, 8192)) both programs compute, edge by edge, the clipped absolute
  cosine of the two endpoint nodes' features, a node's features being its row of A · emb through the three affine layers:
  the kernel computes the features of all nodes once, blocked over K and accumulated, and gathers rows; the reference
  gathers rows of A first. A row gather commutes with a right product and with row-wise layers, and the blocked
  accumulation is a regrouping of one finite sum, so the two agree on the extended reals with no finiteness needed; the
  index range makes the kernel's filling take read the table (its mask all ones), as the reference's clamping gather does.
-/
import proofs.«406657_j56633438765545_2_alg».proof.Defs
import proofs.«406657_j56633438765545_2_alg».proof.Proof.Gen.Kernel
import proofs.«406657_j56633438765545_2_alg».proof.Proof.Gen.KernelIdeal
import proofs.«406657_j56633438765545_2_alg».proof.Proof.Gen.ReferenceIdeal
import proofs.«406657_j56633438765545_2_alg».proof.Proof.Gen.Pre_finite_inputs
import proofs.«406657_j56633438765545_2_alg».proof.Proof.BitsFrameClaim
import proofs.«406657_j56633438765545_2_alg».proof.Proof.FrameClaim
import proofs.«406657_j56633438765545_2_alg».proof.Proof.KernelValue
import proofs.«406657_j56633438765545_2_alg».proof.Proof.RefValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of the (agreeing) argument arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Frm.run_all (F := Ideal) m ρ)
    exact ⟨(h c _ (Cert.KernelIdeal.Frm.mem_uc Cert.KernelIdeal.main_v9 (by decide))).trans (Cert.KernelIdeal.Val.kernel_value m hpre c),
      (h c _ (Cert.KernelIdeal.Frm.mem_uc Cert.KernelIdeal.main_arg0 (by decide))).trans (Cert.KernelIdeal.Frm.W6_main_arg0 m c),
      (h c _ (Cert.KernelIdeal.Frm.mem_uc Cert.KernelIdeal.main_arg1 (by decide))).trans (Cert.KernelIdeal.Frm.W6_main_arg1 m c),
      (h c _ (Cert.KernelIdeal.Frm.mem_uc Cert.KernelIdeal.main_arg2 (by decide))).trans (Cert.KernelIdeal.Frm.W6_main_arg2 m c),
      (h c _ (Cert.KernelIdeal.Frm.mem_uc Cert.KernelIdeal.main_arg3 (by decide))).trans (Cert.KernelIdeal.Frm.W6_main_arg3 m c),
      (h c _ (Cert.KernelIdeal.Frm.mem_uc Cert.KernelIdeal.main_arg4 (by decide))).trans (Cert.KernelIdeal.Frm.W6_main_arg4 m c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v81_eq, Cert.ReferenceIdeal.RefValue.ref_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
